-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S1x2048x128 : Shape := ⟨3, ![1, 2048, 128]⟩
abbrev S1x1024x128 : Shape := ⟨3, ![1, 1024, 128]⟩
abbrev S2048x1 : Shape := ⟨2, ![2048, 1]⟩
abbrev S2048x128 : Shape := ⟨2, ![2048, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S2048x1024 : Shape := ⟨2, ![2048, 1024]⟩
abbrev S1x1024 : Shape := ⟨2, ![1, 1024]⟩
abbrev S2048 : Shape := ⟨1, ![2048]⟩

abbrev nBuf : Space → Nat
  | .hbm => 3
  | .vmem => 11
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .local _ .vmem, ⟨0, _⟩ => ⟨S1x2048x128, .f32⟩
  | .local _ .vmem, ⟨1, _⟩ => ⟨S1x2048x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x1, .f32⟩
  | .local _ .vmem, ⟨9, _⟩ => ⟨S2048x1, .f32⟩
  | .local _ .vmem, ⟨10, _⟩ => ⟨S2048x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v66 : BitVec 1 := Scalar.cmpi .eq arg2 c3_i32
  let v67 : BitVec 32 := Scalar.extui v66
  let c0_i32_28 : BitVec 32 := 0#32
  let v68 : BitVec 1 := Scalar.cmpi .ne v67 c0_i32_28
  v68

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  transposes_S1024x128_p1_0_S128x1024 : S1024x128.Transposes [1, 0] S128x1024
  iota_S2048x1_d0_w32 : S2048x1.Iotas .tc 32 [0]
  iota_S1x1024_d1_w32 : S1x1024.Iotas .tc 32 [1]
  broadcasts_S2048x1_S2048x1024 : S2048x1.Broadcasts S2048x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x128 : S2048x1.Broadcasts S2048x128
  shapeCasts_S2048x128_S1x2048x128 : S2048x128.ShapeCasts S1x2048x128
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x4096x128.size a
  hwx0_0 : ∀ i : grid0.Coords, EltTy.bits .f32 = 32 ∨ (Rect.block (s := S8x4096x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x4096x128.size a
  hwx0_1 : ∀ i : grid0.Coords, EltTy.bits .f32 = 32 ∨ (Rect.block (s := S8x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x4096x128.size a
  hwx0_2 : ∀ i : grid0.Coords, EltTy.bits .f32 = 32 ∨ (Rect.block (s := S8x4096x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x4096x128.size a
  hwx0_3 : ∀ i : grid0.Coords, EltTy.bits .f32 = 32 ∨ (Rect.block (s := S8x4096x128) S1x2048x128.size (cc0_transform_3 i) (hinb0_3 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S8x4096x4096 : Shape := ⟨3, ![8, 4096, 4096]⟩
abbrev S4096x4096 : Shape := ⟨2, ![4096, 4096]⟩
abbrev S1x4096x4096 : Shape := ⟨3, ![1, 4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x128, .f32⟩
  | .hbm, ⟨11, _⟩ => ⟨S8x4096x128, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096x1_S8x4096x4096_0_1_2 : S8x4096x1.BroadcastsInDim S8x4096x4096 (![0, 1, 2] : Fin 3 → Fin S8x4096x4096.rank)
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.K.Runs.lean ====
/- What the three runs of the attention kernel's body share.

   The kernel is one pipeline on the grid (8, 2, 4): 64 points, the last axis the reduction axis.
   At a point t the coordinate on that axis is t % 4.  Four windows: the query block (window 0, one
   block per (batch, row-block), so it stays put while t % 4 runs), the key block (window 1) and the
   value block (window 2), one per point, and the output block (window 3), stored only when
   t % 4 = 3.  Three scratch buffers carry the online softmax between points: the running row
   maximum, the running row sum and the unnormalised accumulator.

   Here: the buffers as the region finds them, each window's block read off its array, the fact
   that every input's staging buffer holds its block at every point, the two conditions of the body
   in closed form (t % 4 = 0 resets the scratch; t % 4 = 3 stores the output), where the output
   window is idle, and the region invariant with the scratch buffers named. -/
import proofs.«410645_j59167469470174_3_alg».proof.Proof.Gen.Kernel.Launch
import proofs.«410645_j59167469470174_3_alg».proof.Proof.Gen.Kernel.Skeleton
import proofs.«410645_j59167469470174_3_alg».proof.Proof.Gen.Kernel.Points
import Idealize.ShloMosaic.Lib.Pipeline.FrameBody
import Idealize.ShloMosaic.Lib.Ring
import Idealize.ShloMosaic.Lib.Tactic

-- membership in a rectangle of these extents is checked coordinate by coordinate: the structural
-- recursion is as deep as the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The region's buffers -/

/-- Core `c`'s buffers when the region is entered: as launched (the program is the region alone). -/
abbrev V (c : Dev nD) (b : Ref sig .tc) : Buf (Elt F) ((c : Thread nD τ).loc b) := m ((c : Thread nD τ).loc b)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query block at EVERY point, although it is fetched only
    when t % 4 = 0: its block index ignores the reduction axis, so where it is not fetched the index
    has not moved and the block of the point before is this point's.  For any proof data whose array
    is the region's (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds the key block at every point (it is fetched at each). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The value window's staging buffer holds the value block at every point (it is fetched at each). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body (the reduction coordinate is 0: the scratch is reset), from the grid
    coordinates, the scalar chain substituted. -/
abbrev cond0_0 (i : grid0.Coords) : Prop := (Scalar.cmpi .ne (Scalar.extui (Scalar.cmpi .eq (BitVec.ofNat 32 (i 2).val) 0#32)) 0#32) = 1#1
/-- It holds exactly at the points t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition of the body (the reduction coordinate is 3: the output block is stored). -/
abbrev cond0_1 (i : grid0.Coords) : Prop := k0_cond2 i = 1#1
/-- It holds exactly at the points t with t % 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the scratch is reset (t % 4 = 0) nothing is stored into the output block: the window is idle, -/
theorem idleAt0_3_A : ∀ t : Fin cfg0.N, cond0_0 (grid0.coords t) → ¬cond0_1 (grid0.coords t) → cfg0.idle 3 (grid0.coords t) = true := by decide +kernel
/-- and the block is not written back there. -/
theorem noFlush0_3_A : ∀ t : Fin cfg0.N, cond0_0 (grid0.coords t) → ¬cond0_1 (grid0.coords t) → (cfg0.win 3).flush t = false := by decide +kernel
/-- In the middle of a reduction (t % 4 = 1 or 2) the output window is idle as well, -/
theorem idleAt0_3_B : ∀ t : Fin cfg0.N, ¬cond0_0 (grid0.coords t) → ¬cond0_1 (grid0.coords t) → cfg0.idle 3 (grid0.coords t) = true := by decide +kernel
/-- and not written back. -/
theorem noFlush0_3_B : ∀ t : Fin cfg0.N, ¬cond0_0 (grid0.coords t) → ¬cond0_1 (grid0.coords t) → (cfg0.win 3).flush t = false := by decide +kernel
/-- At the end of a reduction (t % 4 = 3) the output block is stored: the window is live. -/
theorem liveAt0_3_C : ∀ t : Fin cfg0.N, ¬cond0_0 (grid0.coords t) → cond0_1 (grid0.coords t) → cfg0.idle 3 (grid0.coords t) = false := by decide +kernel

/-! ## The memrefs the body is called on -/

/-- One staging buffer of the output window, through which its contents are stated (which of the two
    does not matter: a whole buffer's contents are read the same through either). -/
abbrev VO0_3 : View sig .tc .vmem S1x2048x128 .f32 := (Memref.whole cc0_stg3_0 : Memref sig .tc .vmem S1x2048x128 .f32).view
/-- Each window's current staging memref at point `t`, and that it is a whole buffer. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- The scratch operands, whole buffers of the kernel's own: the running row maximum, -/
abbrev scM0_0 : Memref sig .tc .vmem S2048x1 .f32 := Memref.whole cc0_scratch0
/-- the running row sum, -/
abbrev scM0_1 : Memref sig .tc .vmem S2048x1 .f32 := Memref.whole cc0_scratch1
/-- and the unnormalised accumulator. -/
abbrev scM0_2 : Memref sig .tc .vmem S2048x128 .f32 := Memref.whole cc0_scratch2
/-- The same as views: what each holds between points is stated through them. -/
abbrev VS0_0 : View sig .tc .vmem S2048x1 .f32 := scM0_0.view
abbrev VS0_1 : View sig .tc .vmem S2048x1 .f32 := scM0_1.view
abbrev VS0_2 : View sig .tc .vmem S2048x128 .f32 := scM0_2.view

/-- The region invariant with the three scratch buffers as memrefs owned at some contents: what the body
    is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.K.RunA.lean ====
/- The body of the attention kernel run whole at a point that OPENS a reduction (t % 4 = 0).

   The first conditional is taken: the running maximum is reset to -∞, the running sum and the
   accumulator to 0, each scratch buffer stored whole, so whatever they held before does not matter.
   Then the point's update: the scores of the query block against the key block, the new row
   maximum, the rescaled sum and accumulator stored back, each buffer whole.  The second conditional
   is not taken: nothing is stored into the output block, which is handed back as it was found. -/
import proofs.«410645_j59167469470174_3_alg».proof.Proof.K.Runs

-- membership in a rectangle of these extents is checked coordinate by coordinate: the structural
-- recursion is as deep as the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 0 — WITH the proof that, on whole memrefs, the three inputs at their blocks `x0`, `x1`, `x2`,
    the output block at any contents `xi3` (handed back untouched), the three scratch buffers at
    anything, the body runs to a continuation that holds the inputs as they were, the output block
    still at `xi3`, and each scratch buffer with its pieces written.  The pieces are the witness the
    run finds. -/
noncomputable def kernelRun0_A (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (xi3 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.K.RunB.lean ====
/- The body of the attention kernel run whole at a point in the MIDDLE of a reduction (t % 4 = 1 or 2).

   Neither conditional is taken.  The scratch buffers are read at what the point before left in them
   (the running maximum, the running sum, the accumulator), the point's update is computed from them
   and from the three input blocks, and each scratch buffer is stored back whole.  Nothing is stored
   into the output block, which is handed back as it was found. -/
import proofs.«410645_j59167469470174_3_alg».proof.Proof.K.RunA

-- membership in a rectangle of these extents is checked coordinate by coordinate: the structural
-- recursion is as deep as the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 1 or 2 — WITH the proof that, on whole memrefs, the three inputs at their blocks `x0`, `x1`,
    `x2`, the output block at any contents `xi3` (handed back untouched), the three scratch buffers at
    the contents `xs0`, `xs1`, `xs2` the point before left, the body runs to a continuation that holds
    the inputs as they were, the output block still at `xi3`, and each scratch buffer with its pieces
    written.  The pieces are the witness the run finds. -/
noncomputable def kernelRun0_B (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (xi3 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Gen

end
-- ==== Proof.K.RunC.lean ====
/- The body of the attention kernel run whole at a point that CLOSES a reduction (t % 4 = 3).

   The first conditional is not taken: the scratch buffers are read at what the point before left,
   updated from the three input blocks and stored back whole, as in the middle of a reduction.  The
   second conditional is taken: the accumulator divided row by row by the running sum is stored into
   the output block, whole, so whatever that block held before does not matter. -/
import proofs.«410645_j59167469470174_3_alg».proof.Proof.K.RunB

-- membership in a rectangle of these extents is checked coordinate by coordinate: the structural
-- recursion is as deep as the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 3 — WITH the proof that, on whole memrefs, the three inputs at their blocks `x0`, `x1`, `x2`,
    the output block at anything, the three scratch buffers at the contents `xs0`, `xs1`, `xs2` the
    point before left, the body runs to a continuation that holds the inputs as they were and the
    output block and each scratch buffer with their pieces written.  The pieces are the witness the
    run finds. -/
noncomputable def kernelRun0_C (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Gen

end
-- ==== Proof.K.Frame.lean ====
/- The frame of the attention kernel's pipeline: what the output block and the three scratch buffers hold
   point by point, the proof data, and the body obligation.

   The 64 points fall into 16 reductions of 4 points.  A reduction opens (t % 4 = 0) by resetting the running
   maximum, sum and accumulator, goes on (t % 4 = 1, 2) updating them from the point's key and value blocks, and
   closes (t % 4 = 3) with one more update and the store of the accumulator divided by the sum into the output
   block.  So the scratch after a point is a function of the scratch after the point before — except where a
   reduction opens, where it is a function of the point's blocks alone — and the output block is stored, whole,
   exactly where it is written back. -/
import proofs.«410645_j59167469470174_3_alg».proof.Proof.K.RunC

-- membership in a rectangle of these extents is checked coordinate by coordinate: the structural
-- recursion is as deep as the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What a point that opens a reduction (t % 4 = 0) leaves -/

/-- At a point that opens a reduction (t % 4 = 0) nothing is stored into the output block: no pieces. A placeholder (junk read
    back) that nothing consults: at these points the block is neither written back nor read later. -/
def out0_A_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S1x2048x128 .f32 :=
  VO0_3.read (Elt F) (VO0_3.writes (Elt F) VO0_3.junk (kernelRun0_A c i arg3 harg3 arg4 harg4 arg5 harg5 arg6 harg6 arg7 harg7 arg8 harg8 arg9 harg9 hc0 hc1 x0 x1 x2).1)

/-- The stores into the running row maximum at a point that opens a reduction (t % 4 = 0) cover it: each is of the whole buffer. -/
theorem scover0_A_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x1.Idx) :
    ∃ pc ∈ (kernelRun0_A c i arg3 harg3 arg4 harg4 arg5 harg5 arg6 harg6 arg7 harg7 arg8 harg8 arg9 harg9 hc0 hc1 x0 x1 x2).2.1, y ∈ pc.1.set :=
  View.cover_of_tiledL (kernelRun0_A c i arg3 harg3 arg4 harg4 arg5 harg5 arg6 harg6 arg7 harg7 arg8 harg8 arg9 harg9 hc0 hc1 x0 x1 x2).2.1 S2048x1.size (by sl_kernel_rfl) y

/-- What the running row maximum holds after a point that opens a reduction (t % 4 = 0): its pieces read back over junk. -/
def sout0_A_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).2.1)

/-- The stores into the running row sum at a point that opens a reduction (t % 4 = 0) cover it: each is of the whole buffer. -/
theorem scover0_A_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x1.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S2048x1.size (by sl_kernel_rfl) y

/-- What the running row sum holds after a point that opens a reduction (t % 4 = 0): its pieces read back over junk. -/
def sout0_A_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.2.1)

/-- The stores into the accumulator at a point that opens a reduction (t % 4 = 0) cover it: each is of the whole buffer. -/
theorem scover0_A_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x128.Idx) :
    ∃ pc ∈ (kernelRun0_A c i arg3 harg3 arg4 harg4 arg5 harg5 arg6 harg6 arg7 harg7 arg8 harg8 arg9 harg9 hc0 hc1 x0 x1 x2).2.2.2.1, y ∈ pc.1.set :=
  View.cover_of_tiledL (kernelRun0_A c i arg3 harg3 arg4 harg4 arg5 harg5 arg6 harg6 arg7 harg7 arg8 harg8 arg9 harg9 hc0 hc1 x0 x1 x2).2.2.2.1 S2048x128.size (by sl_kernel_rfl) y

/-- What the accumulator holds after a point that opens a reduction (t % 4 = 0): its pieces read back over junk. -/
def sout0_A_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x128 .f32 :=
  VS0_2.read (Elt F) (VS0_2.writes (Elt F) VS0_2.junk (kernelRun0_A c i arg3 harg3 arg4 harg4 arg5 harg5 arg6 harg6 arg7 harg7 arg8 harg8 arg9 harg9 hc0 hc1 x0 x1 x2).2.2.2.1)

/-! ## What a point in the middle of a reduction (t % 4 = 1 or 2) leaves -/

/-- At a point in the middle of a reduction (t % 4 = 1 or 2) nothing is stored into the output block: no pieces. A placeholder (junk read
    back) that nothing consults: at these points the block is neither written back nor read later. -/
def out0_B_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S1x2048x128 .f32 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1 xs2).1)

/-- The stores into the running row maximum at a point in the middle of a reduction (t % 4 = 1 or 2) cover it: each is of the whole buffer. -/
theorem scover0_B_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S2048x1.size (by sl_kernel_rfl) y

/-- What the running row maximum holds after a point in the middle of a reduction (t % 4 = 1 or 2): its pieces read back over junk. -/
def sout0_B_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).2.1)

/-- The stores into the running row sum at a point in the middle of a reduction (t % 4 = 1 or 2) cover it: each is of the whole buffer. -/
theorem scover0_B_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.1 S2048x1.size (by sl_kernel_rfl) y

/-- What the running row sum holds after a point in the middle of a reduction (t % 4 = 1 or 2): its pieces read back over junk. -/
def sout0_B_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.2.1)

/-- The stores into the accumulator at a point in the middle of a reduction (t % 4 = 1 or 2) cover it: each is of the whole buffer. -/
theorem scover0_B_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x128.Idx) :
    ∃ pc ∈ (kernelRun0_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.2.1 S2048x128.size (by sl_kernel_rfl) y

/-- What the accumulator holds after a point in the middle of a reduction (t % 4 = 1 or 2): its pieces read back over junk. -/
def sout0_B_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x128 .f32 :=
  VS0_2.read (Elt F) (VS0_2.writes (Elt F) VS0_2.junk (kernelRun0_B c i arg3 harg3 arg4 harg4 arg5 harg5 arg6 harg6 arg7 harg7 arg8 harg8 arg9 harg9 hc0 hc1 x0 x1 x2 xs0 xs1 xs2).2.2.2.1)

/-! ## What a point that closes a reduction (t % 4 = 3) leaves -/

/-- At a point that closes a reduction (t % 4 = 3) the store of the normalised accumulator covers the output block: one piece of the
    block's own size. -/
theorem cover0_C_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S1x2048x128.Idx) :
    ∃ pc ∈ (kernelRun0_C c i arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg3 harg3 arg4 harg4 arg5 harg5 arg6 harg6 arg7 harg7 arg8 harg8 arg9 harg9 hc0 hc1 x0 x1 x2 xs0 xs1 xs2).1 S1x2048x128.size (by sl_kernel_rfl) y

/-- What the output block holds after a point that closes a reduction (t % 4 = 3): its pieces read back over junk. -/
def out0_C_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S1x2048x128 .f32 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1 xs2).1)

/-- The stores into the running row maximum at a point that closes a reduction (t % 4 = 3) cover it: each is of the whole buffer. -/
theorem scover0_C_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.1 S2048x1.size (by sl_kernel_rfl) y

/-- What the running row maximum holds after a point that closes a reduction (t % 4 = 3): its pieces read back over junk. -/
def sout0_C_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1 xs2).2.1)

/-- The stores into the running row sum at a point that closes a reduction (t % 4 = 3) cover it: each is of the whole buffer. -/
theorem scover0_C_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.1 S2048x1.size (by sl_kernel_rfl) y

/-- What the running row sum holds after a point that closes a reduction (t % 4 = 3): its pieces read back over junk. -/
def sout0_C_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1 xs2).2.2.1)

/-- The stores into the accumulator at a point that closes a reduction (t % 4 = 3) cover it: each is of the whole buffer. -/
theorem scover0_C_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x128.Idx) :
    ∃ pc ∈ (kernelRun0_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.2.1 S2048x128.size (by sl_kernel_rfl) y

/-- What the accumulator holds after a point that closes a reduction (t % 4 = 3): its pieces read back over junk. -/
def sout0_C_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x128 .f32 :=
  VS0_2.read (Elt F) (VS0_2.writes (Elt F) VS0_2.junk (kernelRun0_C c i arg3 harg3 arg4 harg4 arg5 harg5 arg6 harg6 arg7 harg7 arg8 harg8 arg9 harg9 hc0 hc1 x0 x1 x2 xs0 xs1 xs2).2.2.2.1)

/-! ## What the output block and the scratch hold after each point -/

/-- THE RECURRENCE. What the output window's staging buffer and the three scratch buffers hold after the body at
    position `n` (the output's buffer, then the running maximum, the running sum, the accumulator): the case
    `n % 4` selects, run at the point's memrefs and input blocks — where a reduction opens (`n % 4 = 0`) from
    nothing, elsewhere from the scratch the point before left.  The two conditions cannot hold together. -/
def outsAt0 (c : Dev nD) : (n : ℕ) → n < cfg0.N → Vec F S1x2048x128 .f32 × Vec F S2048x1 .f32 × Vec F S2048x1 .f32 × Vec F S2048x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point that opens a reduction: that case's contents. -/
theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point in the middle of a reduction: that case's contents, over the scratch the point before left. -/
theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point that closes a reduction: that case's contents, over the scratch the point before left. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point every scratch buffer at anything (what the
    launch hands over); afterwards the running maximum, the running sum and the accumulator each at what the point
    before left in it (`outsAt0`'s scratch components), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt0`'s first component; the invariant `PhiS`; nothing
    owed.  The query and key windows read ONE array and hold its two half shares; the value array and the result are
    held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

/-- The proof data's arrays are the region-entry contents (the definition projected, `V` left folded). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' memrefs hold their blocks; `t % 4` says which of the three cases the point is
    in, and that case's run applies: it is handed the scratch at what the point before left (at anything where a
    reduction opens: there the scratch is reset before it is read — at the very first point because nothing has
    been stored yet, later by forgetting what the reduction before left), and gives it back at this point's contents,
    each buffer covered by its stores.  The output block is handed back as found except where a reduction closes,
    where the store covers it.  The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · by_cases h1 : t.val % 4 = 3
    · exfalso; omega
    · rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by omega)
    by_cases h1 : t.val % 4 = 3
    · rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.Kernel.Gen

end
-- ==== Proof.LibFrameShared.lean ====
/-
  The frame run of a one-region pipeline, with an invariant that tracks what the body keeps in scratch between grid
  points, for a pipeline whose windows MAY SHARE AN ARRAY (one array handed to the kernel through several input
  windows). The run is the library's launch of a region with no semaphore of the kernel's own; in place of "every
  array held whole", the certificate says how the buffers behind the arrays, each whole at the region-entry contents,
  are dealt among the windows that read them (`hsplit`: an array two input windows read is split into two half shares).
  The conclusion is the library's frame post: every window's array at what the proof data compute after the last
  point, every other unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant when windows may share an array: as the library's run for distinct
    arrays, with the split of the arrays' buffers among the windows supplied (`hsplit`) and the layout facts taken
    one by one (the staging cells distinct, the windows' layout but for the arrays' distinctness, no empty block,
    whole arrays and staging buffers). -/
theorem θ_run_frame_track_shared (cfgs : P → Cfg sig Λ₀)
    (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact Pipeline.θ_run_region_pf (fun q => (cfgs q).toPCfg (Val := Val)) (fun q => (cfgs q).toPCfg_adm) dats () hcell p hw
    (OwnSemFacts.none (cfgs p).spec) (PreFacts.none _) emb₁ defs₀ 𝒱₀ m g main hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((cfgs p).toPCfg (Val := Val)).pre (cfgs p).spec c (V c))
    (hX := fun c => by
      iintro ⟨HU, -, -, -, Hp, -⟩; imodintro
      isplitl [Hp]; · iexists _; iexact Hp
      iexact HU)
    (hin := fun c => by
      exact (show _ ⊢ ΦA (cfgs p).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig ((cfgs p).toPCfg (Val := Val)).pre (cfgs p).spec, s.mem ((c.tc : Thread nD τ).loc b) = V c b)
    (hY := fun c s' => by
      iintro ⟨-, HU, HSI⟩
      unfold unscopedRestP
      imodintro
      iapply (pointsTo_read_all (restRefsP sig ((cfgs p).toPCfg (Val := Val)).pre (cfgs p).spec) (fun b => (c.tc : Thread nD τ).loc b) (V c) s')
      isplitl [HU] <;> iassumption)
    (hQ := fun s h c => ⟨fun w => (h c).1 w,
      rest_of_restP ((cfgs p).toPCfg (Val := Val)).pre (cfgs p).spec ((cfgs p).toPCfg_adm (Val := Val)).1 c (V c) s (fun k => k.elim0) (h c).2.1 (h c).2.2⟩)

end Idealize.ShloMosaic.Pipeline

end
-- ==== Proof.K.Launch.lean ====
/-
  The launch of the attention kernel's one region. Its query window and its key window read ONE array (the first
  argument), so that array's buffer is dealt to them as its two half shares; the value window's array and the output
  window's array are held whole. With that split, the body obligation at every grid point and the invariant that
  tracks the three scratch buffers give the run: every weakly fair execution terminates, each input array ends as it
  began and the output array ends at what the grid points' write-backs leave. The frame claim is that run with the
  output forgotten.
-/
import proofs.«410645_j59167469470174_3_alg».proof.Proof.K.Frame
import proofs.«410645_j59167469470174_3_alg».proof.Proof.LibFrameShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone, so the region finds the buffers as launched. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The three distinct buffers behind the four windows' arrays. -/
theorem arrRefs_eq : Finset.univ.image (Pipeline.arrRef spec0) = {main_arg0, main_arg1, main_v0} := by decide

/-- The buffers behind the arrays, each whole at the region-entry contents, dealt among the windows: the first
    argument's to the query and key windows by halves, the second argument's to the value window, the result's to the
    output window. -/
theorem hsplit (c : Dev nD) :
    (Pipeline.arrBufs spec0 c (V m c) : sProp 𝕄) ⊢ (dats m 0 c).arrays ((dats m 0 c).arrAt · 0) := by
  unfold Pipeline.arrBufs Dat.arrays
  rw [arrRefs_eq, bigSep_W0]
  rw [BI.bigSep_insert (by decide), BI.bigSep_insert (by decide), BI.bigSep_singleton]
  rw [(arr_whole0 0).set_eq_univ, (arr_whole0 2).set_eq_univ, (arr_whole0 3).set_eq_univ]
  show iprop((((c : Thread nD τ).loc main_arg0) ↦{fullShare} V m c main_arg0) ∗ (((c : Thread nD τ).loc main_arg1) ↦{fullShare} V m c main_arg1) ∗ (((c : Thread nD τ).loc main_v0) ↦{fullShare} V m c main_v0)) ⊢ _
  iintro ⟨H0, H1, H2⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  iexact H2

set_option backward.isDefEq.respectTransparency.types false in
/-- At the compiled mesh, from any memory with zero counters: every weakly fair execution of the program terminates,
    and every final state has each window's array at what the proof data compute after the last grid point and every
    other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run with the result named: the result array ends at what the write-backs of the grid points leave, the two
    argument arrays as they began (an input window's array is never written). -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩) (run_main m ρ)

/-- The frame: the program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Gen

end
-- ==== Proof.KI.Runs.lean ====
/- What the three runs of the attention kernel's body share.

   The kernel is one pipeline on the grid (8, 2, 4): 64 points, the last axis the reduction axis.
   At a point t the coordinate on that axis is t % 4.  Four windows: the query block (window 0, one
   block per (batch, row-block), so it stays put while t % 4 runs), the key block (window 1) and the
   value block (window 2), one per point, and the output block (window 3), stored only when
   t % 4 = 3.  Three scratch buffers carry the online softmax between points: the running row
   maximum, the running row sum and the unnormalised accumulator.

   Here: the buffers as the region finds them, each window's block read off its array, the fact
   that every input's staging buffer holds its block at every point, the two conditions of the body
   in closed form (t % 4 = 0 resets the scratch; t % 4 = 3 stores the output), where the output
   window is idle, and the region invariant with the scratch buffers named. -/
import proofs.«410645_j59167469470174_3_alg».proof.Proof.Gen.KernelIdeal.Launch
import proofs.«410645_j59167469470174_3_alg».proof.Proof.Gen.KernelIdeal.Skeleton
import proofs.«410645_j59167469470174_3_alg».proof.Proof.Gen.KernelIdeal.Points
import Idealize.ShloMosaic.Lib.Pipeline.FrameBody
import Idealize.ShloMosaic.Lib.Ring
import Idealize.ShloMosaic.Lib.Tactic

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The region's buffers -/

/-- Core `c`'s buffers when the region is entered: as launched (the program is the region alone). -/
abbrev V (c : Dev nD) (b : Ref sig .tc) : Buf (Elt F) ((c : Thread nD τ).loc b) := m ((c : Thread nD τ).loc b)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds the query block at EVERY point, although it is fetched only
    when t % 4 = 0: its block index ignores the reduction axis, so where it is not fetched the index
    has not moved and the block of the point before is this point's.  For any proof data whose array
    is the region's (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds the key block at every point (it is fetched at each). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The value window's staging buffer holds the value block at every point (it is fetched at each). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first condition of the body (the reduction coordinate is 0: the scratch is reset), from the grid
    coordinates, the scalar chain substituted. -/
abbrev cond0_0 (i : grid0.Coords) : Prop := (Scalar.cmpi .ne (Scalar.extui (Scalar.cmpi .eq (BitVec.ofNat 32 (i 2).val) 0#32)) 0#32) = 1#1
/-- It holds exactly at the points t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second condition of the body (the reduction coordinate is 3: the output block is stored). -/
abbrev cond0_1 (i : grid0.Coords) : Prop := k0_cond2 i = 1#1
/-- It holds exactly at the points t with t % 4 = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the scratch is reset (t % 4 = 0) nothing is stored into the output block: the window is idle, -/
theorem idleAt0_3_A : ∀ t : Fin cfg0.N, cond0_0 (grid0.coords t) → ¬cond0_1 (grid0.coords t) → cfg0.idle 3 (grid0.coords t) = true := by decide +kernel
/-- and the block is not written back there. -/
theorem noFlush0_3_A : ∀ t : Fin cfg0.N, cond0_0 (grid0.coords t) → ¬cond0_1 (grid0.coords t) → (cfg0.win 3).flush t = false := by decide +kernel
/-- In the middle of a reduction (t % 4 = 1 or 2) the output window is idle as well, -/
theorem idleAt0_3_B : ∀ t : Fin cfg0.N, ¬cond0_0 (grid0.coords t) → ¬cond0_1 (grid0.coords t) → cfg0.idle 3 (grid0.coords t) = true := by decide +kernel
/-- and not written back. -/
theorem noFlush0_3_B : ∀ t : Fin cfg0.N, ¬cond0_0 (grid0.coords t) → ¬cond0_1 (grid0.coords t) → (cfg0.win 3).flush t = false := by decide +kernel
/-- At the end of a reduction (t % 4 = 3) the output block is stored: the window is live. -/
theorem liveAt0_3_C : ∀ t : Fin cfg0.N, ¬cond0_0 (grid0.coords t) → cond0_1 (grid0.coords t) → cfg0.idle 3 (grid0.coords t) = false := by decide +kernel

/-! ## The memrefs the body is called on -/

/-- One staging buffer of the output window, through which its contents are stated (which of the two
    does not matter: a whole buffer's contents are read the same through either). -/
abbrev VO0_3 : View sig .tc .vmem S1x2048x128 .f32 := (Memref.whole cc0_stg3_0 : Memref sig .tc .vmem S1x2048x128 .f32).view
/-- Each window's current staging memref at point `t`, and that it is a whole buffer. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .f32 := win0_3.stage (cfg0.slots t 3)
abbrev hs0_3 (t : Fin cfg0.N) : (ms0_3 t).IsWhole := hstage0_3 ((cfg0.slots t 3).cast nbuf0_3)
/-- The scratch operands, whole buffers of the kernel's own: the running row maximum, -/
abbrev scM0_0 : Memref sig .tc .vmem S2048x1 .f32 := Memref.whole cc0_scratch0
/-- the running row sum, -/
abbrev scM0_1 : Memref sig .tc .vmem S2048x1 .f32 := Memref.whole cc0_scratch1
/-- and the unnormalised accumulator. -/
abbrev scM0_2 : Memref sig .tc .vmem S2048x128 .f32 := Memref.whole cc0_scratch2
/-- The same as views: what each holds between points is stated through them. -/
abbrev VS0_0 : View sig .tc .vmem S2048x1 .f32 := scM0_0.view
abbrev VS0_1 : View sig .tc .vmem S2048x1 .f32 := scM0_1.view
abbrev VS0_2 : View sig .tc .vmem S2048x128 .f32 := scM0_2.view

/-- The region invariant with the three scratch buffers as memrefs owned at some contents: what the body
    is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.RunA.lean ====
/- The body of the attention kernel run whole at a point that OPENS a reduction (t % 4 = 0).

   The first conditional is taken: the running maximum is reset to -∞, the running sum and the
   accumulator to 0, each scratch buffer stored whole, so whatever they held before does not matter.
   Then the point's update: the scores of the query block against the key block, the new row
   maximum, the rescaled sum and accumulator stored back, each buffer whole.  The second conditional
   is not taken: nothing is stored into the output block, which is handed back as it was found. -/
import proofs.«410645_j59167469470174_3_alg».proof.Proof.KI.Runs

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 0 — WITH the proof that, on whole memrefs, the three inputs at their blocks `x0`, `x1`, `x2`,
    the output block at any contents `xi3` (handed back untouched), the three scratch buffers at
    anything, the body runs to a continuation that holds the inputs as they were, the output block
    still at `xi3`, and each scratch buffer with its pieces written.  The pieces are the witness the
    run finds. -/
noncomputable def kernelRun0_A (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (xi3 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.KI.RunB.lean ====
/- The body of the attention kernel run whole at a point in the MIDDLE of a reduction (t % 4 = 1 or 2).

   Neither conditional is taken.  The scratch buffers are read at what the point before left in them
   (the running maximum, the running sum, the accumulator), the point's update is computed from them
   and from the three input blocks, and each scratch buffer is stored back whole.  Nothing is stored
   into the output block, which is handed back as it was found. -/
import proofs.«410645_j59167469470174_3_alg».proof.Proof.KI.RunA

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 1 or 2 — WITH the proof that, on whole memrefs, the three inputs at their blocks `x0`, `x1`,
    `x2`, the output block at any contents `xi3` (handed back untouched), the three scratch buffers at
    the contents `xs0`, `xs1`, `xs2` the point before left, the body runs to a continuation that holds
    the inputs as they were, the output block still at `xi3`, and each scratch buffer with its pieces
    written.  The pieces are the witness the run finds. -/
noncomputable def kernelRun0_B (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (xi3 : Vec F S1x2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨[], ?_, ?_, ?_, fun xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Gen

end
-- ==== Proof.KI.RunC.lean ====
/- The body of the attention kernel run whole at a point that CLOSES a reduction (t % 4 = 3).

   The first conditional is not taken: the scratch buffers are read at what the point before left,
   updated from the three input blocks and stored back whole, as in the middle of a reduction.  The
   second conditional is taken: the accumulator divided row by row by the running sum is stored into
   the output block, whole, so whatever that block held before does not matter. -/
import proofs.«410645_j59167469470174_3_alg».proof.Proof.KI.RunB

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
-- (the run's proof term is large: closing the definition walks it past the default budget)
set_option maxHeartbeats 1000000 in
/-- What the body's stores leave in each buffer, as pieces (last store first), at a point with
    t % 4 = 3 — WITH the proof that, on whole memrefs, the three inputs at their blocks `x0`, `x1`, `x2`,
    the output block at anything, the three scratch buffers at the contents `xs0`, `xs1`, `xs2` the
    point before left, the body runs to a continuation that holds the inputs as they were and the
    output block and each scratch buffer with their pieces written.  The pieces are the witness the
    run finds. -/
noncomputable def kernelRun0_C (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    Σ' (L3 : List (View.Piece (Elt F) S1x2048x128 .f32)) (LS0 : List (View.Piece (Elt F) S2048x1 .f32)) (LS1 : List (View.Piece (Elt F) S2048x1 .f32)),
      { LS2 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.KI.Frame.lean ====
/- The frame of the attention kernel's pipeline: what the output block and the three scratch buffers hold
   point by point, the proof data, and the body obligation.

   The 64 points fall into 16 reductions of 4 points.  A reduction opens (t % 4 = 0) by resetting the running
   maximum, sum and accumulator, goes on (t % 4 = 1, 2) updating them from the point's key and value blocks, and
   closes (t % 4 = 3) with one more update and the store of the accumulator divided by the sum into the output
   block.  So the scratch after a point is a function of the scratch after the point before — except where a
   reduction opens, where it is a function of the point's blocks alone — and the output block is stored, whole,
   exactly where it is written back. -/
import proofs.«410645_j59167469470174_3_alg».proof.Proof.KI.RunC

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What a point that opens a reduction (t % 4 = 0) leaves -/

/-- At a point that opens a reduction (t % 4 = 0) nothing is stored into the output block: no pieces. A placeholder (junk read
    back) that nothing consults: at these points the block is neither written back nor read later. -/
def out0_A_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S1x2048x128 .f32 :=
  VO0_3.read (Elt F) (VO0_3.writes (Elt F) VO0_3.junk (kernelRun0_A c i arg3 harg3 arg4 harg4 arg5 harg5 arg6 harg6 arg7 harg7 arg8 harg8 arg9 harg9 hc0 hc1 x0 x1 x2).1)

/-- The stores into the running row maximum at a point that opens a reduction (t % 4 = 0) cover it: each is of the whole buffer. -/
theorem scover0_A_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x1.Idx) :
    ∃ pc ∈ (kernelRun0_A c i arg3 harg3 arg4 harg4 arg5 harg5 arg6 harg6 arg7 harg7 arg8 harg8 arg9 harg9 hc0 hc1 x0 x1 x2).2.1, y ∈ pc.1.set :=
  View.cover_of_tiledL (kernelRun0_A c i arg3 harg3 arg4 harg4 arg5 harg5 arg6 harg6 arg7 harg7 arg8 harg8 arg9 harg9 hc0 hc1 x0 x1 x2).2.1 S2048x1.size (by sl_kernel_rfl) y

/-- What the running row maximum holds after a point that opens a reduction (t % 4 = 0): its pieces read back over junk. -/
def sout0_A_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x1 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2).2.1)

/-- The stores into the running row sum at a point that opens a reduction (t % 4 = 0) cover it: each is of the whole buffer. -/
theorem scover0_A_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x1.Idx) :
    ∃ pc ∈ (kernelRun0_A c i arg3 harg3 arg4 harg4 arg5 harg5 arg6 harg6 arg7 harg7 arg8 harg8 arg9 harg9 hc0 hc1 x0 x1 x2).2.2.1, y ∈ pc.1.set :=
  View.cover_of_tiledL (kernelRun0_A c i arg3 harg3 arg4 harg4 arg5 harg5 arg6 harg6 arg7 harg7 arg8 harg8 arg9 harg9 hc0 hc1 x0 x1 x2).2.2.1 S2048x1.size (by sl_kernel_rfl) y

/-- What the running row sum holds after a point that opens a reduction (t % 4 = 0): its pieces read back over junk. -/
def sout0_A_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1 x2).2.2.1)

/-- The stores into the accumulator at a point that opens a reduction (t % 4 = 0) cover it: each is of the whole buffer. -/
theorem scover0_A_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) (y : S2048x128.Idx) :
    ∃ pc ∈ (kernelRun0_A c i arg3 harg3 arg4 harg4 arg5 harg5 arg6 harg6 arg7 harg7 arg8 harg8 arg9 harg9 hc0 hc1 x0 x1 x2).2.2.2.1, y ∈ pc.1.set :=
  View.cover_of_tiledL (kernelRun0_A c i arg3 harg3 arg4 harg4 arg5 harg5 arg6 harg6 arg7 harg7 arg8 harg8 arg9 harg9 hc0 hc1 x0 x1 x2).2.2.2.1 S2048x128.size (by sl_kernel_rfl) y

/-- What the accumulator holds after a point that opens a reduction (t % 4 = 0): its pieces read back over junk. -/
def sout0_A_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) : Vec F S2048x128 .f32 :=
  VS0_2.read (Elt F) (VS0_2.writes (Elt F) VS0_2.junk (kernelRun0_A c i arg3 harg3 arg4 harg4 arg5 harg5 arg6 harg6 arg7 harg7 arg8 harg8 arg9 harg9 hc0 hc1 x0 x1 x2).2.2.2.1)

/-! ## What a point in the middle of a reduction (t % 4 = 1 or 2) leaves -/

/-- At a point in the middle of a reduction (t % 4 = 1 or 2) nothing is stored into the output block: no pieces. A placeholder (junk read
    back) that nothing consults: at these points the block is neither written back nor read later. -/
def out0_B_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S1x2048x128 .f32 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1 xs2).1)

/-- The stores into the running row maximum at a point in the middle of a reduction (t % 4 = 1 or 2) cover it: each is of the whole buffer. -/
theorem scover0_B_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S2048x1.size (by sl_kernel_rfl) y

/-- What the running row maximum holds after a point in the middle of a reduction (t % 4 = 1 or 2): its pieces read back over junk. -/
def sout0_B_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).2.1)

/-- The stores into the running row sum at a point in the middle of a reduction (t % 4 = 1 or 2) cover it: each is of the whole buffer. -/
theorem scover0_B_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.1 S2048x1.size (by sl_kernel_rfl) y

/-- What the running row sum holds after a point in the middle of a reduction (t % 4 = 1 or 2): its pieces read back over junk. -/
def sout0_B_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.2.1)

/-- The stores into the accumulator at a point in the middle of a reduction (t % 4 = 1 or 2) cover it: each is of the whole buffer. -/
theorem scover0_B_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x128.Idx) :
    ∃ pc ∈ (kernelRun0_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.2.1 S2048x128.size (by sl_kernel_rfl) y

/-- What the accumulator holds after a point in the middle of a reduction (t % 4 = 1 or 2): its pieces read back over junk. -/
def sout0_B_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x128 .f32 :=
  VS0_2.read (Elt F) (VS0_2.writes (Elt F) VS0_2.junk (kernelRun0_B c i arg3 harg3 arg4 harg4 arg5 harg5 arg6 harg6 arg7 harg7 arg8 harg8 arg9 harg9 hc0 hc1 x0 x1 x2 xs0 xs1 xs2).2.2.2.1)

/-! ## What a point that closes a reduction (t % 4 = 3) leaves -/

/-- At a point that closes a reduction (t % 4 = 3) the store of the normalised accumulator covers the output block: one piece of the
    block's own size. -/
theorem cover0_C_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S1x2048x128.Idx) :
    ∃ pc ∈ (kernelRun0_C c i arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg3 harg3 arg4 harg4 arg5 harg5 arg6 harg6 arg7 harg7 arg8 harg8 arg9 harg9 hc0 hc1 x0 x1 x2 xs0 xs1 xs2).1 S1x2048x128.size (by sl_kernel_rfl) y

/-- What the output block holds after a point that closes a reduction (t % 4 = 3): its pieces read back over junk. -/
def out0_C_3 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S1x2048x128 .f32 :=
  VO0_3.read (Elt F) (VO0_3.writes (Elt F) VO0_3.junk (kernelRun0_C c i arg3 harg3 arg4 harg4 arg5 harg5 arg6 harg6 arg7 harg7 arg8 harg8 arg9 harg9 hc0 hc1 x0 x1 x2 xs0 xs1 xs2).1)

/-- The stores into the running row maximum at a point that closes a reduction (t % 4 = 3) cover it: each is of the whole buffer. -/
theorem scover0_C_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.1 S2048x1.size (by sl_kernel_rfl) y

/-- What the running row maximum holds after a point that closes a reduction (t % 4 = 3): its pieces read back over junk. -/
def sout0_C_0 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 xs0 xs1 xs2).2.1)

/-- The stores into the running row sum at a point that closes a reduction (t % 4 = 3) cover it: each is of the whole buffer. -/
theorem scover0_C_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x1.Idx) :
    ∃ pc ∈ (kernelRun0_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.1 S2048x1.size (by sl_kernel_rfl) y

/-- What the running row sum holds after a point that closes a reduction (t % 4 = 3): its pieces read back over junk. -/
def sout0_C_1 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x1 .f32 :=
  VS0_1.read (Elt F) (VS0_1.writes (Elt F) VS0_1.junk (kernelRun0_C c i arg3 harg3 arg4 harg4 arg5 harg5 arg6 harg6 arg7 harg7 arg8 harg8 arg9 harg9 hc0 hc1 x0 x1 x2 xs0 xs1 xs2).2.2.1)

/-- The stores into the accumulator at a point that closes a reduction (t % 4 = 3) cover it: each is of the whole buffer. -/
theorem scover0_C_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) (y : S2048x128.Idx) :
    ∃ pc ∈ (kernelRun0_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg3 harg3 arg4 harg4 arg5 harg5 arg6 harg6 arg7 harg7 arg8 harg8 arg9 harg9 hc0 hc1 x0 x1 x2 xs0 xs1 xs2).2.2.2.1 S2048x128.size (by sl_kernel_rfl) y

/-- What the accumulator holds after a point that closes a reduction (t % 4 = 3): its pieces read back over junk. -/
def sout0_C_2 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) : Vec F S2048x128 .f32 :=
  VS0_2.read (Elt F) (VS0_2.writes (Elt F) VS0_2.junk (kernelRun0_C c i arg3 harg3 arg4 harg4 arg5 harg5 arg6 harg6 arg7 harg7 arg8 harg8 arg9 harg9 hc0 hc1 x0 x1 x2 xs0 xs1 xs2).2.2.2.1)

/-! ## What the output block and the scratch hold after each point -/

/-- THE RECURRENCE. What the output window's staging buffer and the three scratch buffers hold after the body at
    position `n` (the output's buffer, then the running maximum, the running sum, the accumulator): the case
    `n % 4` selects, run at the point's memrefs and input blocks — where a reduction opens (`n % 4 = 0`) from
    nothing, elsewhere from the scratch the point before left.  The two conditions cannot hold together. -/
def outsAt0 (c : Dev nD) : (n : ℕ) → n < cfg0.N → Vec F S1x2048x128 .f32 × Vec F S2048x1 .f32 × Vec F S2048x1 .f32 × Vec F S2048x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point that opens a reduction: that case's contents. -/
theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point in the middle of a reduction: that case's contents, over the scratch the point before left. -/
theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point that closes a reduction: that case's contents, over the scratch the point before left. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point every scratch buffer at anything (what the
    launch hands over); afterwards the running maximum, the running sum and the accumulator each at what the point
    before left in it (`outsAt0`'s scratch components), and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at `outsAt0`'s first component; the invariant `PhiS`; nothing
    owed.  The query and key windows read ONE array and hold its two half shares; the value array and the result are
    held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

/-- The proof data's arrays are the region-entry contents (the definition projected, `V` left folded). -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the library's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point.  The inputs' memrefs hold their blocks; `t % 4` says which of the three cases the point is
    in, and that case's run applies: it is handed the scratch at what the point before left (at anything where a
    reduction opens: there the scratch is reset before it is read — at the very first point because nothing has
    been stored yet, later by forgetting what the reduction before left), and gives it back at this point's contents,
    each buffer covered by its stores.  The output block is handed back as found except where a reduction closes,
    where the store covers it.  The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · by_cases h1 : t.val % 4 = 3
    · exfalso; omega
    · rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by omega)
    by_cases h1 : t.val % 4 = 3
    · rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ _ _)
    · rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Gen

end
-- ==== Proof.KI.Launch.lean ====
/-
  The launch of the attention kernel's one region. Its query window and its key window read ONE array (the first
  argument), so that array's buffer is dealt to them as its two half shares; the value window's array and the output
  window's array are held whole. With that split, the body obligation at every grid point and the invariant that
  tracks the three scratch buffers give the run: every weakly fair execution terminates, each input array ends as it
  began and the output array ends at what the grid points' write-backs leave. The frame claim is that run with the
  output forgotten.
-/
import proofs.«410645_j59167469470174_3_alg».proof.Proof.KI.Frame
import proofs.«410645_j59167469470174_3_alg».proof.Proof.LibFrameShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program is the region alone, so the region finds the buffers as launched. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The three distinct buffers behind the four windows' arrays. -/
theorem arrRefs_eq : Finset.univ.image (Pipeline.arrRef spec0) = {main_arg0, main_arg1, main_v0} := by decide

/-- The buffers behind the arrays, each whole at the region-entry contents, dealt among the windows: the first
    argument's to the query and key windows by halves, the second argument's to the value window, the result's to the
    output window. -/
theorem hsplit (c : Dev nD) :
    (Pipeline.arrBufs spec0 c (V m c) : sProp 𝕄) ⊢ (dats m 0 c).arrays ((dats m 0 c).arrAt · 0) := by
  unfold Pipeline.arrBufs Dat.arrays
  rw [arrRefs_eq, bigSep_W0]
  rw [BI.bigSep_insert (by decide), BI.bigSep_insert (by decide), BI.bigSep_singleton]
  rw [(arr_whole0 0).set_eq_univ, (arr_whole0 2).set_eq_univ, (arr_whole0 3).set_eq_univ]
  show iprop((((c : Thread nD τ).loc main_arg0) ↦{fullShare} V m c main_arg0) ∗ (((c : Thread nD τ).loc main_arg1) ↦{fullShare} V m c main_arg1) ∗ (((c : Thread nD τ).loc main_v0) ↦{fullShare} V m c main_v0)) ⊢ _
  iintro ⟨H0, H1, H2⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  iexact H2

set_option backward.isDefEq.respectTransparency.types false in
/-- At the compiled mesh, from any memory with zero counters: every weakly fair execution of the program terminates,
    and every final state has each window's array at what the proof data compute after the last grid point and every
    other unscoped buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The run with the result named: the result array ends at what the write-backs of the grid points leave, the two
    argument arrays as they began (an input window's array is never written). -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩) (run_main m ρ)

/-- The frame: the program runs to the end, nothing faults, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Gen

end
-- ==== Proof.KI.Pieces.lean ====
/- What each of the three cases of the attention kernel's body LEAVES in the scratch buffers and in the output
   block, as the body's own payload terms.

   Every store of the body is of a whole buffer, so what a buffer holds after a point is the payload of the last
   store into it; every load is of a whole buffer too, so a payload's operands are the whole contents the loads
   found: an input block, the scratch the point before left, or — for a load that follows a store in the same
   point — that store's payload.  The body loads the old running maximum BEFORE it stores the new one, so the
   sum's and the accumulator's updates take both; where a reduction opens, the "old" values are the reset ones
   read back. -/
import proofs.«410645_j59167469470174_3_alg».proof.Proof.KI.Frame
import Idealize.ShloMosaic.Lib.Pipeline.Value

-- membership in a rectangle of these extents is checked coordinate by coordinate: the structural
-- recursion is as deep as the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The zero offset of a rank-2 buffer, as the constant function. -/
theorem zeroOff2 : (![0, 0] : Fin 2 → Nat) = fun _ => 0 := funext fun a => by fin_cases a <;> rfl
/-- The zero offset of a rank-3 block, as the constant function. -/
theorem zeroOff3 : (![0, 0, 0] : Fin 3 → Nat) = fun _ => 0 := funext fun a => by fin_cases a <;> rfl

/-- Where a reduction opens the running maximum ends as the maximum of the reset value -∞ and the rows' maxima of the point's scores. -/
theorem sout0_A_0_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) :
    sout0_A_0 c i arg3 harg3 arg4 harg4 arg5 harg5 arg6 harg6 arg7 harg7 arg8 harg8 arg9 harg9 hc0 hc1 x0 x1 x2 = k0_pay5 (k0_pay11 i x0 x1 (k0_pay7 (F := F))) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction opens the running sum ends as the reset value 0, rescaled from the reset maximum to the new one, plus the rows' sums of the exponentiated scores. -/
theorem sout0_A_1_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) :
    sout0_A_1 c i arg3 harg3 arg4 harg4 arg5 harg5 arg6 harg6 arg7 harg7 arg8 harg8 arg9 harg9 hc0 hc1 x0 x1 x2 = k0_pay3 (k0_pay10 i x0 x1) (k0_pay7 (F := F)) (k0_pay11 i x0 x1 (k0_pay7 (F := F))) (k0_pay8 (F := F)) := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction opens the accumulator ends as the reset value 0, rescaled likewise, plus the exponentiated scores applied to the value block. -/
theorem sout0_A_2_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : cond0_0 i) (hc1 : ¬cond0_1 i)
    (x0 : Vec F S1x2048x128 .f32) (x1 : Vec F S1x1024x128 .f32) (x2 : Vec F S1x1024x128 .f32) :
    sout0_A_2 c i arg3 harg3 arg4 harg4 arg5 harg5 arg6 harg6 arg7 harg7 arg8 harg8 arg9 harg9 hc0 hc1 x0 x1 x2 = k0_pay4 (k0_pay10 i x0 x1) (k0_pay7 (F := F)) (k0_pay11 i x0 x1 (k0_pay7 (F := F))) x2 (k0_pay9 (F := F)) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x128) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- In the middle of a reduction the running maximum ends as the maximum of the carried one and the rows' maxima of the point's scores. -/
theorem sout0_B_0_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_B_0 c i arg3 harg3 arg4 harg4 arg5 harg5 arg6 harg6 arg7 harg7 arg8 harg8 arg9 harg9 hc0 hc1 x0 x1 x2 xs0 xs1 xs2 = k0_pay5 (k0_pay11 i x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- In the middle of a reduction the running sum ends as the carried one, rescaled from the carried maximum to the new one, plus the rows' sums of the exponentiated scores. -/
theorem sout0_B_1_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_B_1 c i arg3 harg3 arg4 harg4 arg5 harg5 arg6 harg6 arg7 harg7 arg8 harg8 arg9 harg9 hc0 hc1 x0 x1 x2 xs0 xs1 xs2 = k0_pay3 (k0_pay10 i x0 x1) xs0 (k0_pay11 i x0 x1 xs0) xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- In the middle of a reduction the accumulator ends as the carried one, rescaled likewise, plus the exponentiated scores applied to the value block. -/
theorem sout0_B_2_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : ¬cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_B_2 c i arg3 harg3 arg4 harg4 arg5 harg5 arg6 harg6 arg7 harg7 arg8 harg8 arg9 harg9 hc0 hc1 x0 x1 x2 xs0 xs1 xs2 = k0_pay4 (k0_pay10 i x0 x1) xs0 (k0_pay11 i x0 x1 xs0) x2 xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x128) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction closes the running maximum is updated as in the middle of one. -/
theorem sout0_C_0_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_C_0 c i arg3 harg3 arg4 harg4 arg5 harg5 arg6 harg6 arg7 harg7 arg8 harg8 arg9 harg9 hc0 hc1 x0 x1 x2 xs0 xs1 xs2 = k0_pay5 (k0_pay11 i x0 x1 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction closes the running sum is updated as in the middle of one. -/
theorem sout0_C_1_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_C_1 c i arg3 harg3 arg4 harg4 arg5 harg5 arg6 harg6 arg7 harg7 arg8 harg8 arg9 harg9 hc0 hc1 x0 x1 x2 xs0 xs1 xs2 = k0_pay3 (k0_pay10 i x0 x1) xs0 (k0_pay11 i x0 x1 xs0) xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction closes the accumulator is updated as in the middle of one. -/
theorem sout0_C_2_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    sout0_C_2 c i arg3 harg3 arg4 harg4 arg5 harg5 arg6 harg6 arg7 harg7 arg8 harg8 arg9 harg9 hc0 hc1 x0 x1 x2 xs0 xs1 xs2 = k0_pay4 (k0_pay10 i x0 x1) xs0 (k0_pay11 i x0 x1 xs0) x2 xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x128) zeroOff2]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

/-- Where a reduction closes the output block is the updated accumulator divided, row by row, by the updated
    running sum: both are read back after their stores. -/
theorem out0_C_3_eq (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x2048x128 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x128 .f32) (harg9 : arg9.IsWhole) (hc0 : ¬cond0_0 i) (hc1 : cond0_1 i)
    (x0 : Vec F S1x2048x128 .f32) (x1 : Vec F S1x1024x128 .f32) (x2 : Vec F S1x1024x128 .f32) (xs0 : Vec F S2048x1 .f32) (xs1 : Vec F S2048x1 .f32) (xs2 : Vec F S2048x128 .f32) :
    out0_C_3 c i arg3 harg3 arg4 harg4 arg5 harg5 arg6 harg6 arg7 harg7 arg8 harg8 arg9 harg9 hc0 hc1 x0 x1 x2 xs0 xs1 xs2 = k0_pay6 (k0_pay4 (k0_pay10 i x0 x1) xs0 (k0_pay11 i x0 x1 xs0) x2 xs2) (k0_pay3 (k0_pay10 i x0 x1) xs0 (k0_pay11 i x0 x1 xs0) xs1) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1x2048x128) zeroOff3]
  simp only [View.readAt_eq_ld, harg3.read_unread, harg4.read_unread, harg5.read_unread, harg7.read_unread, harg8.read_unread, harg9.read_unread,
    View.ld_unit_zero (S := S1x2048x128) zeroOff3, View.ld_unit_zero (S := S1x1024x128) zeroOff3,
    View.ld_unit_zero (S := S2048x1) zeroOff2, View.ld_unit_zero (S := S2048x128) zeroOff2,
    View.readCov_unit_zero (S := S2048x1) _ zeroOff2, View.readCov_unit_zero (S := S2048x128) _ zeroOff2]

end Cert.KernelIdeal.Gen

end
-- ==== Proof.Spec.lean ====
/-
  The mathematics both programs compute, over the reals.

  For one batch `b`, a row `x b j` of the shared query/key array is turned into a key by dividing it by its Euclidean
  norm, floored at `D`; the score of query `i` against key `j` is their inner product times `sc`; the diagonal
  `j = i` is masked out; each query's scores go through a softmax over `j`, and the weights average the rows of `v`.
  The kernel folds `sc` and the norm into one reciprocal square root of the squared norm floored at `D * D`
  (`keyK`), walks the keys tile by tile keeping a running maximum, a running sum of weights and a running weighted
  sum (`pmax`, `psum`, `pacc`), and divides at the end (`attnK`); the reference normalises the weights first (`attnR`).
-/
import Idealize.ShloMosaic.PureOps.Ideal

noncomputable section

namespace Cert.Attn

/-- A real array of the programs' argument shape: batch, row, feature. -/
abbrev Arr := Fin 8 → Fin 4096 → Fin 128 → ℝ

section Keys

variable (sc D : ℝ) (x : Arr)

/-- The squared Euclidean norm of row `j` of batch `b`. -/
def nsq (b : Fin 8) (j : Fin 4096) : ℝ := ∑ e : Fin 128, x b j e * x b j e

/-- The kernel's key: the row times `sc` over the square root of the squared norm floored at `D * D`. -/
def keyK (b : Fin 8) (j : Fin 4096) (e : Fin 128) : ℝ := x b j e * (sc * (Real.sqrt (max (nsq x b j) (D * D)))⁻¹)

/-- The kernel's score of query row `i` against key row `j`, unmasked. -/
def scoreK (b : Fin 8) (i j : Fin 4096) : ℝ := ∑ e : Fin 128, x b i e * keyK sc D x b j e

/-- The reference's key: the row over its norm floored at `D`. -/
def keyR (b : Fin 8) (j : Fin 4096) (e : Fin 128) : ℝ := x b j e / max (Real.sqrt (nsq x b j)) D

/-- The reference's score: the inner product with the key, then times `sc`. -/
def scoreR (b : Fin 8) (i j : Fin 4096) : ℝ := (∑ e : Fin 128, x b i e * keyR D x b j e) * sc

end Keys

section Row

variable (s : Fin 4096 → ℝ) (i : Fin 4096)

/-- The columns before `n`. -/
def cols (n : ℕ) : Finset (Fin 4096) := Finset.univ.filter fun j : Fin 4096 => j.val < n

/-- Row `i`'s masked score at column `j`, as an extended real: `⊥` on the diagonal. -/
def ms (j : Fin 4096) : EReal := if j = i then ⊥ else (s j : EReal)

/-- The maximum of the masked scores over the columns before `n`, as an extended real (`⊥` over no column). -/
def pmaxE (n : ℕ) : EReal := (cols n).sup (ms s i)

/-- The same as a real (meaningful once two columns are in: one of them is off the diagonal). -/
def pmax (n : ℕ) : ℝ := (pmaxE s i n).toReal

/-- The softmax weight of column `j` against the shift `M`: zero on the diagonal. -/
def wgt (M : ℝ) (j : Fin 4096) : ℝ := if j = i then 0 else Real.exp (s j - M)

/-- The sum of the weights over the columns before `n`. -/
def psum (M : ℝ) (n : ℕ) : ℝ := ∑ j ∈ cols n, wgt s i M j

/-- The weighted sum of `v` over the columns before `n`. -/
def pacc (v : Fin 4096 → ℝ) (M : ℝ) (n : ℕ) : ℝ := ∑ j ∈ cols n, wgt s i M j * v j

/-- The kernel's result for the row: the weighted sum over the sum of weights, both shifted by the row's maximum. -/
def attnK (v : Fin 4096 → ℝ) : ℝ := pacc s i v (pmax s i 4096) 4096 / psum s i (pmax s i 4096) 4096

/-- The reference's result for the row: the weights normalised first, then the average. -/
def attnR (v : Fin 4096 → ℝ) : ℝ :=
  ∑ j : Fin 4096, (wgt s i (pmax s i 4096) j / ∑ j' : Fin 4096, wgt s i (pmax s i 4096) j') * v j

end Row

end Cert.Attn

end
-- ==== Proof.SpecVec.lean ====
/-
  How the programs' extended-real arrays hold real arrays, and the two literals both programs share:
  `X` holds the real array `x` when every entry of `X` is the real number `x` names. Under the
  precondition (every input entry finite) each argument array holds some real array.
-/
import proofs.«410645_j59167469470174_3_alg».proof.Proof.Spec
import Idealize.ShloMosaic.Lib.ValueIdx

noncomputable section

namespace Cert.Attn

open Idealize.ShloMosaic Idealize.ShloMosaic.ValueIdx

/-- The extended-real array `X` (batch, row, feature) holds the real array `x`, entry by entry. -/
def Holds (X : (⟨3, ![8, 4096, 128]⟩ : Shape).Idx → EReal) (x : Arr) : Prop :=
  ∀ (b : Fin 8) (j : Fin 4096) (e : Fin 128), X (ix3 b j e) = ((x b j e : ℝ) : EReal)

/-- The two float literals the programs share, as reals: `sc` is what the word `0x3DB504F3` denotes (the score
    scale), `D` what `0x2B8CBCCC` denotes (the norm's floor), which is positive. -/
structure Lits (sc D : ℝ) : Prop where
  sc_eq : Ideal.ofBits .f32 0x3DB504F3#32 = ((sc : ℝ) : EReal)
  D_eq : Ideal.ofBits .f32 0x2B8CBCCC#32 = ((D : ℝ) : EReal)
  D_pos : 0 < D
  /-- The square of the norm's floor is the rational the kernel's squared-norm floor is named as. -/
  D_sq : D * D = 5316911940649 / 5316911983139663491615228241121378304

end Cert.Attn

end
-- ==== Proof.Consts.lean ====
/-
  The float literals the two programs spell, as the extended reals their words denote: zero, minus infinity, the score
  scale `0x3DB504F3` (the dyadic 11863283 / 2^27) and the norm's floor `0x2B8CBCCC` (the dyadic 2305843 / 2^61), whose
  square is the rational the kernel's squared-norm floor is named as; and the two named constants of the idealized
  kernel by the certificate's table.
-/
import proofs.«410645_j59167469470174_3_alg».proof.Proof.SpecVec
import proofs.«410645_j59167469470174_3_alg».proof.KernelIdeal
import Idealize.ShloMosaic.PureOps.IdealRules

noncomputable section

namespace Cert.Consts

open Idealize.ShloMosaic

/-- `+0.0` denotes `0`. -/
theorem ofBits_zero : Ideal.ofBits .f32 0x00000000#32 = 0 := by
  simp [Ideal.ofBits, Ideal.ieee]

/-- The infinity pattern with the sign set denotes `⊥`. -/
theorem ofBits_neg_inf : Ideal.ofBits .f32 0xFF800000#32 = ⊥ := by
  simp [Ideal.ofBits, Ideal.ieee]

/-- The score scale's word denotes 11863283 / 2^27. -/
theorem ofBits_sc : Ideal.ofBits .f32 0x3DB504F3#32 = (((11863283 / 134217728 : ℝ)) : EReal) := by
  simp [Ideal.ofBits, Ideal.ieee, -EReal.coe_mul]; norm_num

/-- The norm floor's word denotes 2305843 / 2^61. -/
theorem ofBits_D : Ideal.ofBits .f32 0x2B8CBCCC#32 = (((2305843 / 2305843009213693952 : ℝ)) : EReal) := by
  simp [Ideal.ofBits, Ideal.ieee, -EReal.coe_mul]; norm_num

/-- The two shared literals as reals. -/
theorem lits : Cert.Attn.Lits (11863283 / 134217728) (2305843 / 2305843009213693952) where
  sc_eq := ofBits_sc
  D_eq := ofBits_D
  D_pos := by norm_num
  D_sq := by norm_num

/-- The kernel's squared-norm floor is named the square of the reference's norm floor. -/
theorem named_eps_sq : Named.named (F := Ideal) Cert.KernelIdeal.κ "eps_sq" (φ := .f32) 0x179ABE15#32
    = ((5316911940649 / 5316911983139663491615228241121378304 : ℝ) : EReal) :=
  IdealRules.named_const.ideal_named_scalar _ _ _ _ rfl

/-- The kernel's mask fill is named minus infinity. -/
theorem named_neg_big : Named.named (F := Ideal) Cert.KernelIdeal.κ "neg_big" (φ := .f32) 0xFF333332#32 = (⊥ : EReal) :=
  IdealRules.named_const.ideal_named_scalar _ _ _ _ rfl

end Cert.Consts

end
-- ==== Proof.KI.Payload.lean ====
/-
  The kernel body's arithmetic read one entry at a time, at the extended reals. Per grid point the body turns the key
  block into scaled unit-norm keys, takes the inner products of the query block's rows with them (one tile of
  scores), masks the entries on the global diagonal, raises the running row maximum, and rescales and extends the
  running row sum of exponentials and the running weighted sum of the value block's rows; at the last key tile it
  divides the weighted sum by the sum. Each lemma says what one stored value is at an entry, from the loaded values
  at entries.
-/
import proofs.«410645_j59167469470174_3_alg».proof.Proof.Gen.KernelIdeal.Skeleton
import proofs.«410645_j59167469470174_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Attn

/-- A column `[a, 1]` broadcast along the row to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the last axis of an `[a, b]` array from the zero word, read at row `r`: the sum of the row. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  show ∑ c : Fin b, src (h.lift (ix1 r) c) = ∑ c : Fin b, src (ix2 r c)
  refine Finset.sum_congr rfl fun c _ => congrArg src ?_
  funext ax
  match ax with
  | ⟨0, _⟩ => rfl
  | ⟨1, _⟩ => rfl

/-- The fold of `max` from `⊥` over a finite set is the supremum over it. -/
theorem fold_max_bot {ι : Type} (s : Finset ι) (f : ι → EReal) : s.fold max (⊥ : EReal) f = s.sup f := by
  classical
  induction s using Finset.induction_on with
  | empty => rfl
  | insert a s ha ih => rw [Finset.fold_insert ha, Finset.sup_insert, ih]

/-- The maximum over the last axis of an `[a, b]` array from the word of minus infinity, read at row `r`: the supremum of
    the row. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r) = Finset.univ.sup fun c : Fin b => src (ix2 r c) := by
  refine (Ideal.multiReduction_maximumf_single src 0xFF800000#32 h hφ hacc (ix1 r)).trans ?_
  show Finset.fold max (Ideal.ofBits .f32 0xFF800000#32) (fun c : Fin b => src (h.lift (ix1 r) c)) Finset.univ = _
  rw [Cert.Consts.ofBits_neg_inf, fold_max_bot]
  refine Finset.sup_congr rfl fun c _ => congrArg src ?_
  funext ax
  match ax with
  | ⟨0, _⟩ => rfl
  | ⟨1, _⟩ => rfl

/-! ### The second product: weights `[2048, 1024]` times value rows `[1024, 128]`, contracted over the 1024 axis -/

/-- The left operand's row is the result's row. -/
theorem lhsPV_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
/-- The left operand's column is the contraction coordinate. -/
theorem lhsPV_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- The right operand's row is the contraction coordinate. -/
theorem rhsPV_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- The right operand's column is the result's column. -/
theorem rhsPV_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The product into a zero accumulator, read at `(r, e)`: the sum over the contracted axis of the left operand's row
    `r` times the right operand's column `e`. -/
theorem matmulPV_apply {φ₁ φ₂ : FTy} (l : FVec Ideal S2048x1024 φ₁) (rr : FVec Ideal S1024x128 φ₂) (r : Fin 2048) (e : Fin 128) :
    matmul dot_S2048x1024_S1024x128_S2048x128_1_0_0_1_n_n none l rr (constant (F := Ideal) S2048x128 .f32 0x00000000#32) (ix2 r e)
      = ∑ c : Fin 1024, l (ix2 r c) * rr (ix2 c e) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r e) ((contrEquiv1 dot_S2048x1024_S1024x128_S2048x128_1_0_0_1_n_n 1024 rfl rfl).symm k) = ix2 r k :=
    funext fun a => Fin.ext (by
      match a with
      | ⟨0, _⟩ => exact lhsPV_0 _ _
      | ⟨1, _⟩ => exact (lhsPV_1 _ _).trans hk)
  have er : dot_S2048x1024_S1024x128_S2048x128_1_0_0_1_n_n.rhsIdx (ix2 r e) ((contrEquiv1 dot_S2048x1024_S1024x128_S2048x128_1_0_0_1_n_n 1024 rfl rfl).symm k) = ix2 k e :=
    funext fun a => Fin.ext (by
      match a with
      | ⟨0, _⟩ => exact (rhsPV_0 _ _).trans hk
      | ⟨1, _⟩ => exact rhsPV_1 _ _)
  rw [el, er]

/-! ### The first product: query rows `[2048, 128]` times the transposed keys `[128, 1024]`, contracted over the 128 axis -/

/-- The left operand's row is the result's row. -/
theorem lhsQK_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide),
    dif_pos (show (0 : Fin S2048x128.rank) ∈ dot_S2048x128_S128x1024_S2048x1024_1_0_0_1_n_n.lhsNonContracting by decide)]
  rfl
/-- The left operand's column is the contraction coordinate. -/
theorem lhsQK_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
/-- The right operand's row is the contraction coordinate. -/
theorem rhsQK_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
/-- The right operand's column is the result's column. -/
theorem rhsQK_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide),
    dif_pos (show (1 : Fin S128x1024.rank) ∈ dot_S2048x128_S128x1024_S2048x1024_1_0_0_1_n_n.rhsNonContracting by decide)]
  rfl

/-- The product into a zero accumulator, read at `(r, e)`: the sum over the contracted axis of the left operand's row
    `r` times the right operand's column `e`. -/
theorem matmulQK_apply {φ₁ φ₂ : FTy} (l : FVec Ideal S2048x128 φ₁) (rr : FVec Ideal S128x1024 φ₂) (r : Fin 2048) (e : Fin 1024) :
    matmul dot_S2048x128_S128x1024_S2048x1024_1_0_0_1_n_n none l rr (constant (F := Ideal) S2048x1024 .f32 0x00000000#32) (ix2 r e)
      = ∑ c : Fin 128, l (ix2 r c) * rr (ix2 c e) := by
  simp only [matmul]
  rw [Ideal.matmul_constant_zero_apply, ← Equiv.sum_comp (contrEquiv1 dot_S2048x128_S128x1024_S2048x1024_1_0_0_1_n_n 128 rfl rfl).symm]
  refine Finset.sum_congr rfl fun k _ => ?_
  have hk := contrEquiv1_symm_val dot_S2048x128_S128x1024_S2048x1024_1_0_0_1_n_n 128 rfl rfl k
  have el : dot_S2048x128_S128x1024_S2048x1024_1_0_0_1_n_n.lhsIdx (ix2 r e) ((contrEquiv1 dot_S2048x128_S128x1024_S2048x1024_1_0_0_1_n_n 128 rfl rfl).symm k) = ix2 r k :=
    funext fun a => Fin.ext (by
      match a with
      | ⟨0, _⟩ => exact lhsQK_0 _ _
      | ⟨1, _⟩ => exact (lhsQK_1 _ _).trans hk)
  have er : dot_S2048x128_S128x1024_S2048x1024_1_0_0_1_n_n.rhsIdx (ix2 r e) ((contrEquiv1 dot_S2048x128_S128x1024_S2048x1024_1_0_0_1_n_n 128 rfl rfl).symm k) = ix2 k e :=
    funext fun a => Fin.ext (by
      match a with
      | ⟨0, _⟩ => exact (rhsQK_0 _ _).trans hk
      | ⟨1, _⟩ => exact rhsQK_1 _ _)
  rw [el, er]

/-! ### The mask: the tile's global row against its global column, as 32-bit words -/

/-- The words `a * 2048 + r` and `b * 1024 + c`, with `a < 2`, `b < 4`, `r < 2048`, `c < 1024`, do not wrap: they are equal
    exactly when the naturals are. -/
theorem maskWord_eq_iff (a b r c : ℕ) (ha : a < 2) (hb : b < 4) (hr : r < 2048) (hc : c < 1024) :
    IntOp.addi (Scalar.muli (BitVec.ofNat 32 a) 2048#32) (BitVec.ofNat 32 r)
        = IntOp.addi (Scalar.muli (BitVec.ofNat 32 b) 1024#32) (BitVec.ofNat 32 c)
      ↔ 2048 * a + r = 1024 * b + c := by
  unfold IntOp.addi Scalar.muli IntOp.muli
  rw [← BitVec.toNat_inj]
  simp only [BitVec.toNat_add, BitVec.toNat_mul, BitVec.toNat_ofNat, Nat.reducePow, Nat.reduceMod]
  omega

/-- The mask bit of the tile at `(r, c)`: set exactly where the global row `2048 * (i 1) + r` is the global column
    `1024 * (i 2) + c`. -/
theorem maskBit_apply (i : grid0.Coords) (r : Fin 2048) (c : Fin 1024) :
    cmpi .eq
        (broadcastTo S2048x1024
          (addi (broadcast S2048x1 (Scalar.muli (BitVec.ofNat 32 (i 1).val) 2048#32)) (iota .tc S2048x1 32 [0] iota_S2048x1_d0_w32))
          broadcasts_S2048x1_S2048x1024)
        (broadcastTo S2048x1024
          (addi (broadcast S1x1024 (Scalar.muli (BitVec.ofNat 32 (i 2).val) 1024#32)) (iota .tc S1x1024 32 [1] iota_S1x1024_d1_w32))
          broadcasts_S1x1024_S2048x1024)
        (ix2 r c)
      = if 2048 * (i 1).val + r.val = 1024 * (i 2).val + c.val then 1#1 else 0#1 := by
  have h1 : (i 1).val < 2 := (i 1).isLt
  have h2 : (i 2).val < 4 := (i 2).isLt
  show IntOp.cmpi .eq (broadcastTo S2048x1024 _ broadcasts_S2048x1_S2048x1024 (ix2 r c))
      (broadcastTo S2048x1024 _ broadcasts_S1x1024_S2048x1024 (ix2 r c)) = _
  rw [broadcastTo_a1_ab_apply, broadcastTo_1b_ab_apply]
  show IntOp.cmpi .eq (IntOp.addi _ (iota .tc S2048x1 32 [0] iota_S2048x1_d0_w32 (ix2 r (0 : Fin 1))))
      (IntOp.addi _ (iota .tc S1x1024 32 [1] iota_S1x1024_d1_w32 (ix2 (0 : Fin 1) c))) = _
  rw [iota_single_apply, iota_single_apply]
  show BitVec.ofBool (IntOp.addi (Scalar.muli (BitVec.ofNat 32 (i 1).val) 2048#32) (BitVec.ofNat 32 r.val)
      == IntOp.addi (Scalar.muli (BitVec.ofNat 32 (i 2).val) 1024#32) (BitVec.ofNat 32 c.val)) = _
  by_cases h : 2048 * (i 1).val + r.val = 1024 * (i 2).val + c.val
  · rw [if_pos h, (maskWord_eq_iff _ _ _ _ h1 h2 r.isLt c.isLt).mpr h]
    simp
  · rw [if_neg h, (beq_eq_false_iff_ne).mpr fun e => h ((maskWord_eq_iff _ _ _ _ h1 h2 r.isLt c.isLt).mp e)]
    rfl

/-! ### The scaled unit-norm key rows -/

/-- A finite sum of real coercions is the coercion of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real coercions is the coercion of the larger. -/
theorem coe_max (x y : ℝ) : max ((x : ℝ) : EReal) ((y : ℝ) : EReal) = ((max x y : ℝ) : EReal) :=
  (EReal.coe_strictMono.monotone.map_max).symm

/-- The reciprocal square root of a positive real. -/
theorem rsqrt_coe_pos {x : ℝ} (hx : 0 < x) : Ideal.rsqrt ((x : ℝ) : EReal) = (((Real.sqrt x)⁻¹ : ℝ) : EReal) := by
  rw [Ideal.rsqrt_coe, if_neg (not_lt.mpr hx.le), if_neg hx.ne']

/-- The factor of key row `c`: the scale over the square root of the row's squared norm floored at `D * D`. -/
theorem keyFactor_apply (sc D : ℝ) (hL : Lits sc D) (v6 : FVec Ideal S1024x128 .f32) (kr : Fin 1024 → Fin 128 → ℝ)
    (hk : ∀ (c : Fin 1024) (e : Fin 128), v6 (ix2 c e) = ((kr c e : ℝ) : EReal)) (c : Fin 1024) :
    mulf (broadcast S1024x1 (Scalar.ofBits (F := Ideal) .f32 0x3DB504F3#32))
        (rsqrt (maximumf
          (shapeCast S1024x1 (multiReduction .add [1] S1024 (mulf v6 v6) 0x00000000#32 reduces_S1024x128_S1024 (.inl rfl) rfl)
            shapeCasts_S1024_S1024x1)
          (broadcast S1024x1 (Named.named (F := Ideal) κ "eps_sq" (φ := .f32) 0x179ABE15#32))))
        (ix2 c (0 : Fin 1))
      = ((sc * (Real.sqrt (max (∑ e' : Fin 128, kr c e' * kr c e') (D * D)))⁻¹ : ℝ) : EReal) := by
  have hs : ∑ e : Fin 128, mulf v6 v6 (ix2 c e) = ((∑ e' : Fin 128, kr c e' * kr c e' : ℝ) : EReal) := by
    rw [← coe_sum]
    refine Finset.sum_congr rfl fun e _ => ?_
    rw [mulf_apply, hk, EReal.coe_mul]
  have hpos : 0 < max (∑ e' : Fin 128, kr c e' * kr c e') (D * D) :=
    lt_max_of_lt_right (mul_pos hL.D_pos hL.D_pos)
  rw [mulf_apply, broadcast_apply]
  show Ideal.ofBits .f32 0x3DB504F3#32
      * Ideal.rsqrt (max (shapeCast S1024x1 _ shapeCasts_S1024_S1024x1 (ix2 c (0 : Fin 1)))
          (Named.named (F := Ideal) κ "eps_sq" (φ := .f32) 0x179ABE15#32)) = _
  rw [shapeCast_a_a1_apply, laneSum_apply, hs, hL.sc_eq, Cert.Consts.named_eps_sq, ← hL.D_sq, coe_max, rsqrt_coe_pos hpos,
    EReal.coe_mul]

/-- The tile's unmasked score at `(r, c)`: the inner product of query row `r` with (scaled) key row `c`, when both hold real
    entries. -/
theorem scoreQK_apply {φ₁ φ₂ : FTy} (l : FVec Ideal S2048x128 φ₁) (w : FVec Ideal S1024x128 φ₂)
    (a : Fin 2048 → Fin 128 → ℝ) (b : Fin 1024 → Fin 128 → ℝ)
    (hl : ∀ (r : Fin 2048) (e : Fin 128), l (ix2 r e) = ((a r e : ℝ) : EReal))
    (hw : ∀ (c : Fin 1024) (e : Fin 128), w (ix2 c e) = ((b c e : ℝ) : EReal)) (r : Fin 2048) (c : Fin 1024) :
    matmul dot_S2048x128_S128x1024_S2048x1024_1_0_0_1_n_n none l
        (transpose S128x1024 [1, 0] w transposes_S1024x128_p1_0_S128x1024)
        (constant (F := Ideal) S2048x1024 .f32 0x00000000#32) (ix2 r c)
      = ((∑ e : Fin 128, a r e * b c e : ℝ) : EReal) := by
  rw [matmulQK_apply, ← coe_sum]
  refine Finset.sum_congr rfl fun e _ => ?_
  rw [transpose_ix2_apply, hl, hw, EReal.coe_mul]

/-- The running maximum is reset to minus infinity. -/
theorem pay7_apply (j : S2048x1.Idx) : (k0_pay7 (F := Ideal)) j = (⊥ : EReal) := by
  unfold k0_pay7
  rw [shapeCast_self, broadcast_apply]
  exact Cert.Consts.ofBits_neg_inf

/-- The running sum is reset to zero. -/
theorem pay8_apply (j : S2048x1.Idx) : (k0_pay8 (F := Ideal)) j = (0 : EReal) := by
  unfold k0_pay8
  rw [shapeCast_self, broadcast_apply]
  exact Cert.Consts.ofBits_zero

/-- The accumulator is reset to zero. -/
theorem pay9_apply (j : S2048x128.Idx) : (k0_pay9 (F := Ideal)) j = (0 : EReal) := by
  unfold k0_pay9
  rw [shapeCast_self, broadcast_apply]
  exact Cert.Consts.ofBits_zero

/-- The stored maximum is the new maximum. -/
theorem pay5_apply (v37 : FVec Ideal S2048x1 .f32) (j : S2048x1.Idx) : k0_pay5 (F := Ideal) v37 j = v37 j := by
  unfold k0_pay5
  rw [shapeCast_self]

/-- The rescaling factor of row `r`: the exponential of the old maximum less the new. -/
theorem pay1_apply (v34 : Vec Ideal S2048x1 .f32) (v37 : FVec Ideal S2048x1 .f32) (r : Fin 2048) :
    k0_pay1 (F := Ideal) v34 v37 (ix2 r (0 : Fin 1)) = Ideal.exp (v34 (ix2 r (0 : Fin 1)) - v37 (ix2 r (0 : Fin 1))) := by
  rfl

/-- The weight of column `c` in row `r`: the exponential of the score less the row's new maximum. -/
theorem pay2_apply (v33 : FVec Ideal S2048x1024 .f32) (v37 : FVec Ideal S2048x1 .f32) (r : Fin 2048) (c : Fin 1024) :
    k0_pay2 (F := Ideal) v33 v37 (ix2 r c) = Ideal.exp (v33 (ix2 r c) - v37 (ix2 r (0 : Fin 1))) := by
  unfold k0_pay2
  show Ideal.exp (v33 (ix2 r c) - broadcastTo S2048x1024 v37 broadcasts_S2048x1_S2048x1024 (ix2 r c)) = _
  rw [broadcastTo_a1_ab_apply]

/-- The new running sum of row `r`: the old one rescaled plus the tile's weights. -/
theorem pay3_apply (v33 : FVec Ideal S2048x1024 .f32) (v34 : Vec Ideal S2048x1 .f32) (v37 : FVec Ideal S2048x1 .f32)
    (v43 : Vec Ideal S2048x1 .f32) (r : Fin 2048) :
    k0_pay3 (F := Ideal) v33 v34 v37 v43 (ix2 r (0 : Fin 1))
      = k0_pay1 (F := Ideal) v34 v37 (ix2 r (0 : Fin 1)) * v43 (ix2 r (0 : Fin 1))
        + ∑ c : Fin 1024, k0_pay2 (F := Ideal) v33 v37 (ix2 r c) := by
  unfold k0_pay3
  rw [shapeCast_self, addf_apply, mulf_apply, shapeCast_a_a1_apply]
  exact congrArg _ (laneSum_apply _ _ _ _ r)

/-- The new accumulator at row `r`, feature `e`: the old one rescaled plus the tile's weights times the value rows. -/
theorem pay4_apply (v33 : FVec Ideal S2048x1024 .f32) (v34 : Vec Ideal S2048x1 .f32) (v37 : FVec Ideal S2048x1 .f32)
    (v52 : Vec Ideal S1x1024x128 .f32) (v55 : Vec Ideal S2048x128 .f32) (r : Fin 2048) (e : Fin 128) :
    k0_pay4 (F := Ideal) v33 v34 v37 v52 v55 (ix2 r e)
      = k0_pay1 (F := Ideal) v34 v37 (ix2 r (0 : Fin 1)) * v55 (ix2 r e)
        + ∑ c : Fin 1024, k0_pay2 (F := Ideal) v33 v37 (ix2 r c) * v52 (ix3 (0 : Fin 1) c e) := by
  unfold k0_pay4
  rw [shapeCast_self, addf_apply, mulf_apply, broadcastTo_a1_ab_apply]
  refine congrArg _ ((matmulPV_apply _ _ r e).trans ?_)
  refine Finset.sum_congr rfl fun c _ => ?_
  rw [truncf_apply, truncf_apply, shapeCast_1ab_ab_apply]

/-- The output block at row `r`, feature `e`: the accumulator over the running sum. -/
theorem pay6_apply (v69 : Vec Ideal S2048x128 .f32) (v70 : Vec Ideal S2048x1 .f32) (r : Fin 2048) (e : Fin 128) :
    k0_pay6 (F := Ideal) v69 v70 (ix3 (0 : Fin 1) r e) = Ideal.div (v69 (ix2 r e)) (v70 (ix2 r (0 : Fin 1))) := by
  unfold k0_pay6
  refine (shapeCast_ab_1ab_apply _ shapeCasts_S2048x128_S1x2048x128 (0 : Fin 1) r e).trans ?_
  show Ideal.div (v69 (ix2 r e)) (broadcastTo S2048x128 v70 broadcasts_S2048x1_S2048x128 (ix2 r e)) = _
  rw [broadcastTo_a1_ab_apply]

/-- The new maximum of row `r`: the larger of the old one and the largest masked score of the tile's row. -/
theorem pay11_apply (i : grid0.Coords) (v3 : Vec Ideal S1x2048x128 .f32) (v5 : Vec Ideal S1x1024x128 .f32)
    (v34 : Vec Ideal S2048x1 .f32) (r : Fin 2048) :
    k0_pay11 (F := Ideal) i v3 v5 v34 (ix2 r (0 : Fin 1))
      = max (v34 (ix2 r (0 : Fin 1))) (Finset.univ.sup fun c : Fin 1024 => k0_pay10 (F := Ideal) i v3 v5 (ix2 r c)) := by
  unfold k0_pay11
  rw [maximumf_apply, shapeCast_a_a1_apply]
  exact congrArg _ (laneMax_apply _ _ _ _ r)

/-- The masked score of the tile at row `r`, column `c`: minus infinity where the global row `2048 * (i 1) + r` is the
    global column `1024 * (i 2) + c`, else the inner product of query row `r` with key row `c` scaled by `sc` over the
    square root of the key's squared norm floored at `D * D` — when the two blocks hold real entries. -/
theorem pay10_apply (sc D : ℝ) (hL : Lits sc D) (i : grid0.Coords) (v3 : Vec Ideal S1x2048x128 .f32) (v5 : Vec Ideal S1x1024x128 .f32)
    (qr : Fin 2048 → Fin 128 → ℝ) (kr : Fin 1024 → Fin 128 → ℝ)
    (hq : ∀ (r : Fin 2048) (e : Fin 128), v3 (ix3 (0 : Fin 1) r e) = ((qr r e : ℝ) : EReal))
    (hk : ∀ (c : Fin 1024) (e : Fin 128), v5 (ix3 (0 : Fin 1) c e) = ((kr c e : ℝ) : EReal))
    (r : Fin 2048) (c : Fin 1024) :
    k0_pay10 (F := Ideal) i v3 v5 (ix2 r c)
      = if 2048 * (i 1).val + r.val = 1024 * (i 2).val + c.val then (⊥ : EReal)
        else ((∑ e : Fin 128, qr r e * (kr c e * (sc * (Real.sqrt (max (∑ e' : Fin 128, kr c e' * kr c e') (D * D)))⁻¹)) : ℝ) : EReal) := by
  have h6 : ∀ (c : Fin 1024) (e : Fin 128),
      shapeCast S1024x128 v5 shapeCasts_S1x1024x128_S1024x128 (ix2 c e) = ((kr c e : ℝ) : EReal) :=
    fun c e => (shapeCast_1ab_ab_apply v5 _ c e).trans (hk c e)
  unfold k0_pay10
  rw [select_apply, broadcast_apply, Cert.Consts.named_neg_big, maskBit_apply]
  by_cases h : 2048 * (i 1).val + r.val = 1024 * (i 2).val + c.val
  · rw [if_pos h, if_pos h, select_one]
  · rw [if_neg h, if_neg h, select_zero]
    refine scoreQK_apply _ _ qr
      (fun c e => kr c e * (sc * (Real.sqrt (max (∑ e' : Fin 128, kr c e' * kr c e') (D * D)))⁻¹)) ?_ ?_ r c
    · intro r e
      rw [truncf_apply, shapeCast_1ab_ab_apply]
      exact hq r e
    · intro c e
      rw [truncf_apply, mulf_apply, broadcastTo_a1_ab_apply, h6, keyFactor_apply sc D hL _ kr h6 c]
      exact (EReal.coe_mul _ _).symm

end Cert.KernelIdeal.Pay

end
-- ==== Proof.SpecLaws.lean ====
/-
  The laws of the specification: the kernel's folded key is the reference's; the running maximum, the running sum of
  weights and the running weighted sum extend tile by tile (a shift of the maximum rescales every earlier weight by
  one exponential); and dividing at the end is normalising first.
-/
import proofs.«410645_j59167469470174_3_alg».proof.Proof.Spec

noncomputable section

namespace Cert.Attn

section Keys

variable (sc D : ℝ) (x : Arr)

/-- A sum of squares is not negative. -/
theorem nsq_nonneg (b : Fin 8) (j : Fin 4096) : 0 ≤ nsq x b j :=
  Finset.sum_nonneg fun e _ => mul_self_nonneg (x b j e)

/-- The square root commutes with the floor: it is monotone, and the root of `D * D` is `D` for `D ≥ 0`. -/
theorem sqrt_max_sq (hD : 0 < D) (t : ℝ) : Real.sqrt (max t (D * D)) = max (Real.sqrt t) D := by
  have hmono : Monotone Real.sqrt := fun a b hab => Real.sqrt_le_sqrt hab
  rw [hmono.map_max, Real.sqrt_mul_self hD.le]

/-- The square root of the squared norm floored at `D * D` is the norm floored at `D` (for `D > 0`), so multiplying by
    `sc` over it before the inner product is dividing by the floored norm and multiplying by `sc` after. -/
theorem scoreK_eq_scoreR (hD : 0 < D) (b : Fin 8) (i j : Fin 4096) : scoreK sc D x b i j = scoreR sc D x b i j := by
  unfold scoreK scoreR keyK keyR
  rw [sqrt_max_sq D hD, Finset.sum_mul]
  refine Finset.sum_congr rfl fun e _ => ?_
  rw [div_eq_mul_inv]
  ring

end Keys

section Row

variable (s : Fin 4096 → ℝ) (i : Fin 4096)

/-- The columns before `n` are among the columns before any later `n'`. -/
theorem cols_subset (n n' : ℕ) (h : n ≤ n') : cols n ⊆ cols n' := by
  intro j hj
  simp only [cols, Finset.mem_filter, Finset.mem_univ, true_and] at hj ⊢
  omega

/-- Once two columns are in, one of them is off the diagonal: column 1 if `i` is column 0, column 0 otherwise. -/
theorem exists_off_diag (n : ℕ) (hn : 2 ≤ n) : ∃ j ∈ cols n, j ≠ i := by
  by_cases hi : i = (0 : Fin 4096)
  · refine ⟨(1 : Fin 4096), ?_, ?_⟩
    · simp only [cols, Finset.mem_filter, Finset.mem_univ, true_and]
      show (1 : ℕ) < n
      omega
    · rw [hi]; decide
  · refine ⟨(0 : Fin 4096), ?_, fun h => hi h.symm⟩
    simp only [cols, Finset.mem_filter, Finset.mem_univ, true_and]
    show (0 : ℕ) < n
    omega

/-- A masked score is never `⊤`: it is `⊥` or a real. -/
theorem ms_lt_top (j : Fin 4096) : ms s i j < ⊤ := by
  unfold ms
  split_ifs
  · exact bot_lt_top
  · exact EReal.coe_lt_top _

/-- Off the diagonal the masked score is the score. -/
theorem ms_off (j : Fin 4096) (hj : j ≠ i) : ms s i j = (s j : EReal) := by
  unfold ms
  rw [if_neg hj]

/-- The running maximum is never `⊤`. -/
theorem pmaxE_ne_top (n : ℕ) : pmaxE s i n ≠ ⊤ := by
  have h : pmaxE s i n < ⊤ := by
    unfold pmaxE
    rw [Finset.sup_lt_iff bot_lt_top]
    intro j _
    exact ms_lt_top s i j
  exact h.ne

/-- Once two columns are in, the running maximum is at least an off-diagonal score, so it is not `⊥`. -/
theorem pmaxE_ne_bot (n : ℕ) (hn : 2 ≤ n) : pmaxE s i n ≠ ⊥ := by
  obtain ⟨j, hj, hji⟩ := exists_off_diag i n hn
  have h : (s j : EReal) ≤ pmaxE s i n := by
    rw [← ms_off s i j hji]
    exact Finset.le_sup hj
  exact ((EReal.bot_lt_coe (s j)).trans_le h).ne'

/-- Once two columns are in, one is off the diagonal, so the running maximum is a real number. -/
theorem pmaxE_eq_coe (n : ℕ) (hn : 2 ≤ n) : pmaxE s i n = ((pmax s i n : ℝ) : EReal) := by
  unfold pmax
  exact (EReal.coe_toReal (pmaxE_ne_top s i n) (pmaxE_ne_bot s i n hn)).symm

/-- The running maximum extends: over the columns before `n'` it is the larger of the maximum over the columns
    before `n` and the maximum over the columns from `n` up to `n'`. -/
theorem pmaxE_step (n n' : ℕ) (h : n ≤ n') : pmaxE s i n' = max (pmaxE s i n) ((cols n' \ cols n).sup (ms s i)) := by
  unfold pmaxE
  rw [← Finset.sup_union, Finset.union_sdiff_of_subset (cols_subset n n' h)]

/-- The running maximum only grows. -/
theorem pmax_mono (n n' : ℕ) (hn : 2 ≤ n) (h : n ≤ n') : pmax s i n ≤ pmax s i n' := by
  unfold pmax
  refine EReal.toReal_le_toReal ?_ (pmaxE_ne_bot s i n hn) (pmaxE_ne_top s i n')
  exact Finset.sup_mono (cols_subset n n' h)

/-- A shift of the maximum from `M` to `M'` rescales every weight by `exp (M - M')`: both sides vanish on the
    diagonal, and off it `exp (M - M') * exp (s j - M) = exp (s j - M')`. -/
theorem wgt_shift (M M' : ℝ) (j : Fin 4096) : Real.exp (M - M') * wgt s i M j = wgt s i M' j := by
  unfold wgt
  split_ifs
  · exact mul_zero _
  · rw [← Real.exp_add]
    congr 1
    ring

/-- The running sum of weights extends: rescale the old sum to the new maximum and add the new columns' weights. -/
theorem psum_step (n n' : ℕ) (hn : 2 ≤ n) (h : n ≤ n') :
    Real.exp (pmax s i n - pmax s i n') * psum s i (pmax s i n) n + ∑ j ∈ cols n' \ cols n, wgt s i (pmax s i n') j
      = psum s i (pmax s i n') n' := by
  unfold psum
  rw [Finset.mul_sum, ← Finset.sum_sdiff (cols_subset n n' h), add_comm]
  congr 1
  exact Finset.sum_congr rfl fun j _ => wgt_shift s i _ _ j

/-- The running weighted sum extends the same way. -/
theorem pacc_step (v : Fin 4096 → ℝ) (n n' : ℕ) (hn : 2 ≤ n) (h : n ≤ n') :
    Real.exp (pmax s i n - pmax s i n') * pacc s i v (pmax s i n) n + ∑ j ∈ cols n' \ cols n, wgt s i (pmax s i n') j * v j
      = pacc s i v (pmax s i n') n' := by
  unfold pacc
  rw [Finset.mul_sum, ← Finset.sum_sdiff (cols_subset n n' h), add_comm]
  congr 1
  refine Finset.sum_congr rfl fun j _ => ?_
  rw [← mul_assoc, wgt_shift]

/-- The first tile: from nothing, the sums are the tile's own. -/
theorem psum_first (n : ℕ) (M : ℝ) : psum s i M n = ∑ j ∈ cols n, wgt s i M j := rfl

/-- A weight is never negative. -/
theorem wgt_nonneg (M : ℝ) (j : Fin 4096) : 0 ≤ wgt s i M j := by
  unfold wgt
  split_ifs
  · exact le_rfl
  · exact (Real.exp_pos _).le

/-- The sum of the weights is positive once two columns are in (the maximal off-diagonal column weighs one). -/
theorem psum_pos (n : ℕ) (hn : 2 ≤ n) : 0 < psum s i (pmax s i n) n := by
  unfold psum
  obtain ⟨j, hj, hji⟩ := exists_off_diag i n hn
  refine Finset.sum_pos' (fun k _ => wgt_nonneg s i _ k) ⟨j, hj, ?_⟩
  unfold wgt
  rw [if_neg hji]
  exact Real.exp_pos _

/-- Every column is before 4096. -/
theorem cols_full : cols 4096 = Finset.univ := by
  unfold cols
  exact Finset.filter_true_of_mem fun j _ => j.isLt

/-- Dividing the weighted sum by the sum of weights is averaging with the normalised weights. -/
theorem attnK_eq_attnR (v : Fin 4096 → ℝ) : attnK s i v = attnR s i v := by
  unfold attnK attnR pacc psum
  rw [cols_full, Finset.sum_div]
  exact Finset.sum_congr rfl fun j _ => (div_mul_eq_mul_div _ _ _).symm

end Row

end Cert.Attn

end
-- ==== Proof.KI.Steps.lean ====
/-
  One grid point's step of the streaming softmax, at one entry, over the reals. At grid point `i` the query block
  holds rows `2048 * (i 1) + r` of batch `b` and the key and value blocks hold rows `1024 * (i 2) + c`. With `s` the
  row's scores against every key of the batch and `ι` the row's own index (the masked column): the masked tile score
  is `ms s ι` at the tile's column; the new running maximum is `pmax` over the columns up to the tile's end; the new
  running sum and accumulator are `psum` and `pacc` there — from the reset values at the first key tile, from the values
  the tile before left otherwise; and at the last key tile the quotient is the row's attention `attnK`.
-/
import proofs.«410645_j59167469470174_3_alg».proof.Proof.KI.Payload
import proofs.«410645_j59167469470174_3_alg».proof.Proof.SpecLaws

noncomputable section

namespace Cert.KernelIdeal.Steps

open Idealize.ShloMosaic Idealize.ShloMosaic.ValueIdx Cert.KernelIdeal Cert.KernelIdeal.Gen Cert.Attn

/-- The global row a query block's row `r` is at grid point `i`. -/
def qrow (i : grid0.Coords) (r : Fin 2048) : Fin 4096 :=
  ⟨2048 * (i 1).val + r.val, by have h : (i 1).val < 2 := (i 1).isLt; have := r.isLt; omega⟩

/-- The global row (a column of the score matrix) a key or value block's row `c` is at grid point `i`. -/
def kcol (i : grid0.Coords) (c : Fin 1024) : Fin 4096 :=
  ⟨1024 * (i 2).val + c.val, by have h : (i 2).val < 4 := (i 2).isLt; have := c.isLt; omega⟩

/-- The global column of a key block's row is its offset in the tile past the tile's start. -/
theorem kcol_val (i : grid0.Coords) (c : Fin 1024) : (kcol i c).val = 1024 * (i 2).val + c.val := rfl

/-- The global row of a query block's row is its offset in the block past the block's start. -/
theorem qrow_val (i : grid0.Coords) (r : Fin 2048) : (qrow i r).val = 2048 * (i 1).val + r.val := rfl

/-- Distinct rows of a key block are distinct global columns. -/
theorem kcol_injective (i : grid0.Coords) : Function.Injective (kcol i) := by
  intro c c' h
  have h' : 1024 * (i 2).val + c.val = 1024 * (i 2).val + c'.val := congrArg Fin.val h
  exact Fin.ext (by omega)

/-- The global columns of a key tile are exactly the columns before the tile's end that are not before its start. -/
theorem image_kcol (i : grid0.Coords) :
    Finset.univ.image (kcol i) = cols (1024 * (i 2).val + 1024) \ cols (1024 * (i 2).val) := by
  ext j
  simp only [Finset.mem_image, Finset.mem_univ, true_and, Finset.mem_sdiff, cols, Finset.mem_filter]
  constructor
  · rintro ⟨c, rfl⟩
    have hc := c.isLt
    rw [kcol_val]
    omega
  · rintro ⟨h1, h2⟩
    refine ⟨⟨j.val - 1024 * (i 2).val, by omega⟩, Fin.ext ?_⟩
    rw [kcol_val]
    show 1024 * (i 2).val + (j.val - 1024 * (i 2).val) = j.val
    omega

/-- A maximum over a key tile's rows is the maximum over the tile's global columns. -/
theorem sup_tile (i : grid0.Coords) (f : Fin 4096 → EReal) :
    (Finset.univ.sup fun c : Fin 1024 => f (kcol i c)) = (cols (1024 * (i 2).val + 1024) \ cols (1024 * (i 2).val)).sup f := by
  rw [← image_kcol, Finset.sup_image]
  rfl

/-- A sum over a key tile's rows is the sum over the tile's global columns. -/
theorem sum_tile {M : Type*} [AddCommMonoid M] (i : grid0.Coords) (f : Fin 4096 → M) :
    ∑ c : Fin 1024, f (kcol i c) = ∑ j ∈ cols (1024 * (i 2).val + 1024) \ cols (1024 * (i 2).val), f j := by
  rw [← image_kcol, Finset.sum_image fun a _ a' _ h => kcol_injective i h]

/-- No column is before column zero. -/
theorem cols_zero : cols 0 = ∅ := by
  unfold cols
  exact Finset.filter_false_of_mem fun j _ => Nat.not_lt_zero _

/-- A finite sum of reals, read in the extended reals, is the sum of the readings. -/
theorem coe_sum {α : Type*} (t : Finset α) (f : α → ℝ) : ∑ a ∈ t, ((f a : ℝ) : EReal) = ((∑ a ∈ t, f a : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The exponential of a masked score less a real shift is the column's weight against that shift: zero on the
    diagonal (the exponential of minus infinity), the real exponential off it. -/
theorem exp_ms_sub (s : Fin 4096 → ℝ) (ι : Fin 4096) (M : ℝ) (j : Fin 4096) :
    Ideal.exp (ms s ι j - (M : EReal)) = ((wgt s ι M j : ℝ) : EReal) := by
  unfold ms wgt
  split_ifs
  · rw [EReal.bot_sub, Ideal.exp_bot, EReal.coe_zero]
  · rw [← EReal.coe_sub, Ideal.exp_coe]

/-- The running maximum as a real extends over a tile: once two columns are in, the larger of the maximum so far and
    the tile's own maximum is the maximum up to the tile's end. -/
theorem max_core (s : Fin 4096 → ℝ) (ι : Fin 4096) (n n' : ℕ) (hn : 2 ≤ n) (h : n ≤ n') :
    max ((pmax s ι n : ℝ) : EReal) ((cols n' \ cols n).sup (ms s ι)) = ((pmax s ι n' : ℝ) : EReal) := by
  rw [← pmaxE_eq_coe s ι n hn, ← pmaxE_step s ι n n' h, pmaxE_eq_coe s ι n' (hn.trans h)]

/-- From minus infinity and no column, the first tile's maximum is the running maximum at its end. -/
theorem max_core0 (s : Fin 4096 → ℝ) (ι : Fin 4096) (n' : ℕ) (h : 2 ≤ n') :
    max (⊥ : EReal) ((cols n' \ cols 0).sup (ms s ι)) = ((pmax s ι n' : ℝ) : EReal) := by
  rw [cols_zero, Finset.sdiff_empty, max_eq_right bot_le]
  exact pmaxE_eq_coe s ι n' h

section

variable (sc D : ℝ) (hL : Lits sc D) (x v : Arr) (b : Fin 8) (i : grid0.Coords)
  (x0 : Vec Ideal S1x2048x128 .f32) (x1 x2 : Vec Ideal S1x1024x128 .f32)
  (hq : ∀ (r : Fin 2048) (e : Fin 128), x0 (ix3 (0 : Fin 1) r e) = ((x b (qrow i r) e : ℝ) : EReal))
  (hk : ∀ (c : Fin 1024) (e : Fin 128), x1 (ix3 (0 : Fin 1) c e) = ((x b (kcol i c) e : ℝ) : EReal))
  (hv : ∀ (c : Fin 1024) (e : Fin 128), x2 (ix3 (0 : Fin 1) c e) = ((v b (kcol i c) e : ℝ) : EReal))

include hL hq hk in
/-- The tile's masked score at row `r`, column `c` is the row's masked score at the tile's global column. -/
theorem score_tile (r : Fin 2048) (c : Fin 1024) :
    k0_pay10 (F := Ideal) i x0 x1 (ix2 r c) = ms (scoreK sc D x b (qrow i r)) (qrow i r) (kcol i c) := by
  rw [Pay.pay10_apply sc D hL i x0 x1 (fun r e => x b (qrow i r) e) (fun c e => x b (kcol i c) e) hq hk r c]
  unfold ms
  by_cases h : kcol i c = qrow i r
  · have h' : 1024 * (i 2).val + c.val = 2048 * (i 1).val + r.val := congrArg Fin.val h
    rw [if_pos h, if_pos h'.symm]
  · have h' : ¬ (2048 * (i 1).val + r.val = 1024 * (i 2).val + c.val) := fun e => h (Fin.ext e.symm)
    rw [if_neg h, if_neg h']
    rfl

include hL hq hk in
/-- The new maximum of row `r`: the larger of the old one and the row's largest masked score over the tile's columns. -/
theorem max_tile (xs0 : Vec Ideal S2048x1 .f32) (r : Fin 2048) :
    k0_pay11 (F := Ideal) i x0 x1 xs0 (ix2 r (0 : Fin 1))
      = max (xs0 (ix2 r (0 : Fin 1))) ((cols (1024 * (i 2).val + 1024) \ cols (1024 * (i 2).val)).sup (ms (scoreK sc D x b (qrow i r)) (qrow i r))) := by
  rw [Pay.pay11_apply i x0 x1 xs0 r, ← sup_tile i (ms (scoreK sc D x b (qrow i r)) (qrow i r))]
  refine congrArg _ (Finset.sup_congr rfl fun c _ => ?_)
  exact score_tile sc D hL x b i x0 x1 hq hk r c

include hL hq hk in
/-- Against a real new maximum `M'`, the tile's weight at row `r`, column `c` is the row's weight at the tile's global
    column. -/
theorem weight_tile (xs0 : Vec Ideal S2048x1 .f32) (r : Fin 2048) (c : Fin 1024) (M' : ℝ)
    (hM' : k0_pay11 (F := Ideal) i x0 x1 xs0 (ix2 r (0 : Fin 1)) = ((M' : ℝ) : EReal)) :
    k0_pay2 (F := Ideal) (k0_pay10 (F := Ideal) i x0 x1) (k0_pay11 (F := Ideal) i x0 x1 xs0) (ix2 r c)
      = ((wgt (scoreK sc D x b (qrow i r)) (qrow i r) M' (kcol i c) : ℝ) : EReal) := by
  rw [Pay.pay2_apply, score_tile sc D hL x b i x0 x1 hq hk r c, hM', exp_ms_sub]

include hL hq hk in
/-- Against a real new maximum `M'`, the new running sum is the old one times the exponential of the old maximum less
    `M'`, plus the weights of the tile's columns. -/
theorem sum_tile_val (xs0 xs1 : Vec Ideal S2048x1 .f32) (r : Fin 2048) (M' : ℝ)
    (hM' : k0_pay11 (F := Ideal) i x0 x1 xs0 (ix2 r (0 : Fin 1)) = ((M' : ℝ) : EReal)) :
    k0_pay3 (F := Ideal) (k0_pay10 (F := Ideal) i x0 x1) xs0 (k0_pay11 (F := Ideal) i x0 x1 xs0) xs1 (ix2 r (0 : Fin 1))
      = Ideal.exp (xs0 (ix2 r (0 : Fin 1)) - ((M' : ℝ) : EReal)) * xs1 (ix2 r (0 : Fin 1))
        + ((∑ j ∈ cols (1024 * (i 2).val + 1024) \ cols (1024 * (i 2).val), wgt (scoreK sc D x b (qrow i r)) (qrow i r) M' j : ℝ) : EReal) := by
  rw [Pay.pay3_apply, Pay.pay1_apply, hM']
  congr 1
  rw [← sum_tile i (fun j => wgt (scoreK sc D x b (qrow i r)) (qrow i r) M' j), ← coe_sum]
  exact Finset.sum_congr rfl fun c _ => weight_tile sc D hL x b i x0 x1 hq hk xs0 r c M' hM'

include hL hq hk hv in
/-- Against a real new maximum `M'`, the new accumulator is the old one times the exponential of the old maximum less
    `M'`, plus the tile's columns' weights times their value rows. -/
theorem acc_tile_val (xs0 : Vec Ideal S2048x1 .f32) (xs2 : Vec Ideal S2048x128 .f32) (r : Fin 2048) (e : Fin 128) (M' : ℝ)
    (hM' : k0_pay11 (F := Ideal) i x0 x1 xs0 (ix2 r (0 : Fin 1)) = ((M' : ℝ) : EReal)) :
    k0_pay4 (F := Ideal) (k0_pay10 (F := Ideal) i x0 x1) xs0 (k0_pay11 (F := Ideal) i x0 x1 xs0) x2 xs2 (ix2 r e)
      = Ideal.exp (xs0 (ix2 r (0 : Fin 1)) - ((M' : ℝ) : EReal)) * xs2 (ix2 r e)
        + ((∑ j ∈ cols (1024 * (i 2).val + 1024) \ cols (1024 * (i 2).val), wgt (scoreK sc D x b (qrow i r)) (qrow i r) M' j * v b j e : ℝ) : EReal) := by
  rw [Pay.pay4_apply, Pay.pay1_apply, hM']
  congr 1
  rw [← sum_tile i (fun j => wgt (scoreK sc D x b (qrow i r)) (qrow i r) M' j * v b j e), ← coe_sum]
  refine Finset.sum_congr rfl fun c _ => ?_
  rw [weight_tile sc D hL x b i x0 x1 hq hk xs0 r c M' hM', hv c e, ← EReal.coe_mul]

include hL hq hk in
/-- First key tile: the new maximum, before it is stored. -/
theorem max_first' (h0 : (i 2).val = 0) (r : Fin 2048) :
    k0_pay11 (F := Ideal) i x0 x1 (k0_pay7 (F := Ideal)) (ix2 r (0 : Fin 1))
      = ((pmax (scoreK sc D x b (qrow i r)) (qrow i r) 1024 : ℝ) : EReal) := by
  have e0 : 1024 * (i 2).val = 0 := by omega
  rw [max_tile sc D hL x b i x0 x1 hq hk (k0_pay7 (F := Ideal)) r, Pay.pay7_apply, e0, Nat.zero_add]
  exact max_core0 _ _ 1024 (by norm_num)

include hL hq hk in
/-- A later key tile: the new maximum, before it is stored. -/
theorem max_next' (h0 : (i 2).val ≠ 0) (xs0 : Vec Ideal S2048x1 .f32) (r : Fin 2048)
    (hm : xs0 (ix2 r (0 : Fin 1)) = ((pmax (scoreK sc D x b (qrow i r)) (qrow i r) (1024 * (i 2).val) : ℝ) : EReal)) :
    k0_pay11 (F := Ideal) i x0 x1 xs0 (ix2 r (0 : Fin 1))
      = ((pmax (scoreK sc D x b (qrow i r)) (qrow i r) (1024 * (i 2).val + 1024) : ℝ) : EReal) := by
  rw [max_tile sc D hL x b i x0 x1 hq hk xs0 r, hm]
  exact max_core _ _ _ _ (by omega) (Nat.le_add_right _ _)

include hL hq hk in
/-- First key tile: from the reset maximum, the new maximum is the maximum over the first 1024 columns. -/
theorem max_first (h0 : (i 2).val = 0) (r : Fin 2048) :
    k0_pay5 (F := Ideal) (k0_pay11 (F := Ideal) i x0 x1 (k0_pay7 (F := Ideal))) (ix2 r (0 : Fin 1))
      = ((pmax (scoreK sc D x b (qrow i r)) (qrow i r) 1024 : ℝ) : EReal) := by
  rw [Pay.pay5_apply]
  exact max_first' sc D hL x b i x0 x1 hq hk h0 r

include hL hq hk in
/-- A later key tile: from the maximum over the columns before the tile, the maximum over the columns up to its end. -/
theorem max_next (h0 : (i 2).val ≠ 0) (xs0 : Vec Ideal S2048x1 .f32) (r : Fin 2048)
    (hm : xs0 (ix2 r (0 : Fin 1)) = ((pmax (scoreK sc D x b (qrow i r)) (qrow i r) (1024 * (i 2).val) : ℝ) : EReal)) :
    k0_pay5 (F := Ideal) (k0_pay11 (F := Ideal) i x0 x1 xs0) (ix2 r (0 : Fin 1))
      = ((pmax (scoreK sc D x b (qrow i r)) (qrow i r) (1024 * (i 2).val + 1024) : ℝ) : EReal) := by
  rw [Pay.pay5_apply]
  exact max_next' sc D hL x b i x0 x1 hq hk h0 xs0 r hm

include hL hq hk in
/-- First key tile: from the reset sum, the sum of the first tile's weights against its maximum. -/
theorem sum_first (h0 : (i 2).val = 0) (r : Fin 2048) :
    k0_pay3 (F := Ideal) (k0_pay10 (F := Ideal) i x0 x1) (k0_pay7 (F := Ideal)) (k0_pay11 (F := Ideal) i x0 x1 (k0_pay7 (F := Ideal)))
        (k0_pay8 (F := Ideal)) (ix2 r (0 : Fin 1))
      = ((psum (scoreK sc D x b (qrow i r)) (qrow i r) (pmax (scoreK sc D x b (qrow i r)) (qrow i r) 1024) 1024 : ℝ) : EReal) := by
  have e0 : 1024 * (i 2).val = 0 := by omega
  rw [sum_tile_val sc D hL x b i x0 x1 hq hk (k0_pay7 (F := Ideal)) (k0_pay8 (F := Ideal)) r _
      (max_first' sc D hL x b i x0 x1 hq hk h0 r),
    Pay.pay8_apply, mul_zero, zero_add, e0, Nat.zero_add, cols_zero, Finset.sdiff_empty]
  rfl

include hL hq hk in
/-- A later key tile: the running sum rescaled to the new maximum plus the tile's weights. -/
theorem sum_next (h0 : (i 2).val ≠ 0) (xs0 xs1 : Vec Ideal S2048x1 .f32) (r : Fin 2048)
    (hm : xs0 (ix2 r (0 : Fin 1)) = ((pmax (scoreK sc D x b (qrow i r)) (qrow i r) (1024 * (i 2).val) : ℝ) : EReal))
    (hl : xs1 (ix2 r (0 : Fin 1)) = ((psum (scoreK sc D x b (qrow i r)) (qrow i r)
        (pmax (scoreK sc D x b (qrow i r)) (qrow i r) (1024 * (i 2).val)) (1024 * (i 2).val) : ℝ) : EReal)) :
    k0_pay3 (F := Ideal) (k0_pay10 (F := Ideal) i x0 x1) xs0 (k0_pay11 (F := Ideal) i x0 x1 xs0) xs1 (ix2 r (0 : Fin 1))
      = ((psum (scoreK sc D x b (qrow i r)) (qrow i r)
          (pmax (scoreK sc D x b (qrow i r)) (qrow i r) (1024 * (i 2).val + 1024)) (1024 * (i 2).val + 1024) : ℝ) : EReal) := by
  rw [sum_tile_val sc D hL x b i x0 x1 hq hk xs0 xs1 r _ (max_next' sc D hL x b i x0 x1 hq hk h0 xs0 r hm),
    hm, hl, ← EReal.coe_sub, Ideal.exp_coe, ← EReal.coe_mul, ← EReal.coe_add,
    psum_step _ _ (1024 * (i 2).val) (1024 * (i 2).val + 1024) (by omega) (Nat.le_add_right _ _)]

include hL hq hk hv in
/-- First key tile: from the reset accumulator, the first tile's weighted sum of the value rows. -/
theorem acc_first (h0 : (i 2).val = 0) (r : Fin 2048) (e : Fin 128) :
    k0_pay4 (F := Ideal) (k0_pay10 (F := Ideal) i x0 x1) (k0_pay7 (F := Ideal)) (k0_pay11 (F := Ideal) i x0 x1 (k0_pay7 (F := Ideal)))
        x2 (k0_pay9 (F := Ideal)) (ix2 r e)
      = ((pacc (scoreK sc D x b (qrow i r)) (qrow i r) (fun j => v b j e)
          (pmax (scoreK sc D x b (qrow i r)) (qrow i r) 1024) 1024 : ℝ) : EReal) := by
  have e0 : 1024 * (i 2).val = 0 := by omega
  rw [acc_tile_val sc D hL x v b i x0 x1 x2 hq hk hv (k0_pay7 (F := Ideal)) (k0_pay9 (F := Ideal)) r e _
      (max_first' sc D hL x b i x0 x1 hq hk h0 r),
    Pay.pay9_apply, mul_zero, zero_add, e0, Nat.zero_add, cols_zero, Finset.sdiff_empty]
  rfl

include hL hq hk hv in
/-- A later key tile: the accumulator rescaled to the new maximum plus the tile's weighted value rows. -/
theorem acc_next (h0 : (i 2).val ≠ 0) (xs0 : Vec Ideal S2048x1 .f32) (xs2 : Vec Ideal S2048x128 .f32) (r : Fin 2048) (e : Fin 128)
    (hm : xs0 (ix2 r (0 : Fin 1)) = ((pmax (scoreK sc D x b (qrow i r)) (qrow i r) (1024 * (i 2).val) : ℝ) : EReal))
    (ha : xs2 (ix2 r e) = ((pacc (scoreK sc D x b (qrow i r)) (qrow i r) (fun j => v b j e)
        (pmax (scoreK sc D x b (qrow i r)) (qrow i r) (1024 * (i 2).val)) (1024 * (i 2).val) : ℝ) : EReal)) :
    k0_pay4 (F := Ideal) (k0_pay10 (F := Ideal) i x0 x1) xs0 (k0_pay11 (F := Ideal) i x0 x1 xs0) x2 xs2 (ix2 r e)
      = ((pacc (scoreK sc D x b (qrow i r)) (qrow i r) (fun j => v b j e)
          (pmax (scoreK sc D x b (qrow i r)) (qrow i r) (1024 * (i 2).val + 1024)) (1024 * (i 2).val + 1024) : ℝ) : EReal) := by
  rw [acc_tile_val sc D hL x v b i x0 x1 x2 hq hk hv xs0 xs2 r e _ (max_next' sc D hL x b i x0 x1 hq hk h0 xs0 r hm),
    hm, ha, ← EReal.coe_sub, Ideal.exp_coe, ← EReal.coe_mul, ← EReal.coe_add,
    pacc_step _ _ (fun j => v b j e) (1024 * (i 2).val) (1024 * (i 2).val + 1024) (by omega) (Nat.le_add_right _ _)]

end

/-- Last key tile: the accumulator over the running sum, both over all 4096 columns, is the row's attention. -/
theorem out_last (s : Fin 4096 → ℝ) (ι : Fin 4096) (ve : Fin 4096 → ℝ) (A : Vec Ideal S2048x128 .f32) (L : Vec Ideal S2048x1 .f32)
    (r : Fin 2048) (e : Fin 128)
    (hA : A (ix2 r e) = ((pacc s ι ve (pmax s ι 4096) 4096 : ℝ) : EReal))
    (hLs : L (ix2 r (0 : Fin 1)) = ((psum s ι (pmax s ι 4096) 4096 : ℝ) : EReal)) :
    k0_pay6 (F := Ideal) A L (ix3 (0 : Fin 1) r e) = ((attnK s ι ve : ℝ) : EReal) := by
  rw [Pay.pay6_apply, hA, hLs, Ideal.div_coe (psum_pos s ι 4096 (by norm_num)).ne', ← EReal.coe_mul]
  unfold attnK
  rw [mul_one_div]

end Cert.KernelIdeal.Steps

end
-- ==== Proof.KI.Blocks.lean ====
/-
  Where a grid point's blocks sit in the argument arrays. Grid point `t` of the 8 x 2 x 4 grid is batch `t / 8`, query
  block `t / 4 % 2`, key tile `t % 4`; the query block's row `r` is row `2048 * (t / 4 % 2) + r` of that batch of the first
  argument, the key block's row `c` is row `1024 * (t % 4) + c` of the same array, and the value block's row `c` is that
  row of the second argument. So when the arrays hold real arrays, the blocks hold their rows.
-/
import proofs.«410645_j59167469470174_3_alg».proof.Proof.KI.Runs
import proofs.«410645_j59167469470174_3_alg».proof.Proof.KI.Steps

noncomputable section

namespace Cert.KernelIdeal.Blocks

open Idealize.ShloMosaic Idealize.ShloMosaic.ValueIdx Cert.KernelIdeal Cert.KernelIdeal.Gen Cert.Attn Cert.KernelIdeal.Steps

variable (m : (ℓ : Loc nD τ sig) → Buf (Elt Ideal) ℓ)

/-- The batch of grid point `t`. -/
def bat (t : Fin cfg0.N) : Fin 8 := ⟨t.val / 8, by have h : t.val < 64 := lt_of_lt_of_eq t.isLt N_0; omega⟩

/-- The grid point's coordinates: batch, query block, key tile. -/
theorem coords_val (t : Fin cfg0.N) :
    (grid0.coords t 0).val = t.val / 8 ∧ (grid0.coords t 1).val = t.val / 4 % 2 ∧ (grid0.coords t 2).val = t.val % 4 :=
  (by decide +kernel : ∀ t : Fin grid0.N,
    (grid0.coords t 0).val = t.val / 8 ∧ (grid0.coords t 1).val = t.val / 4 % 2 ∧ (grid0.coords t 2).val = t.val % 4) t

/-- The three input windows' block indices, decided once over the grid: the query window's block is (batch, query
    block, 0); the key and the value windows' block is (batch, key tile, 0). -/
theorem idx_facts : ∀ t : Fin cfg0.N,
    (win0_0.index t (0 : Fin 3) = t.val / 8 ∧ win0_0.index t (1 : Fin 3) = t.val / 4 % 2 ∧ win0_0.index t (2 : Fin 3) = 0)
    ∧ (win0_1.index t (0 : Fin 3) = t.val / 8 ∧ win0_1.index t (1 : Fin 3) = t.val % 4 ∧ win0_1.index t (2 : Fin 3) = 0)
    ∧ (win0_2.index t (0 : Fin 3) = t.val / 8 ∧ win0_2.index t (1 : Fin 3) = t.val % 4 ∧ win0_2.index t (2 : Fin 3) = 0) :=
  (by decide +kernel : ∀ t : Fin grid0.N, _)

/-- The query block at grid point `t`, as a vector of its literal shape. -/
abbrev qblk (c : Dev nD) (t : Fin cfg0.N) : Vec Ideal S1x2048x128 .f32 := iblk m c 0 t
/-- The key block. -/
abbrev kblk (c : Dev nD) (t : Fin cfg0.N) : Vec Ideal S1x1024x128 .f32 := iblk m c 1 t
/-- The value block. -/
abbrev vblk (c : Dev nD) (t : Fin cfg0.N) : Vec Ideal S1x1024x128 .f32 := iblk m c 2 t

/-- The query block holds the batch's rows `2048 * (query block) + r` of the first argument. -/
theorem qblk_apply (c : Dev nD) (x : Arr) (hX : Holds (V m c main_arg0) x) (t : Fin cfg0.N) (r : Fin 2048) (e : Fin 128) :
    qblk m c t (ix3 (0 : Fin 1) r e) = ((x (bat t) (qrow (grid0.coords t) r) e : ℝ) : EReal) := by
  obtain ⟨-, hc1, -⟩ := coords_val t
  obtain ⟨⟨e0, e1, e2⟩, -, -⟩ := idx_facts t
  show iblk m c 0 t (ix3 (0 : Fin 1) r e) = _
  unfold iblk
  rw [View.read_apply]
  show V m c main_arg0 (((cfg0.win 0).blk t).view.emb (ix3 (0 : Fin 1) r e)) = _
  refine (congrArg (V m c main_arg0 : (⟨3, ![8, 4096, 128]⟩ : Shape).Idx → EReal) ?_).trans
    (hX (bat t) (qrow (grid0.coords t) r) e)
  funext a
  apply Fin.ext
  match a with
  | ⟨0, _⟩ => show win0_0.index t (0 : Fin 3) * 1 + 1 * 0 = t.val / 8; omega
  | ⟨1, _⟩ => show win0_0.index t (1 : Fin 3) * 2048 + 1 * r.val = 2048 * (grid0.coords t 1).val + r.val; omega
  | ⟨2, _⟩ => show win0_0.index t (2 : Fin 3) * 128 + 1 * e.val = e.val; omega

/-- The key block holds the batch's rows `1024 * (key tile) + c'` of the first argument. -/
theorem kblk_apply (c : Dev nD) (x : Arr) (hX : Holds (V m c main_arg0) x) (t : Fin cfg0.N) (c' : Fin 1024) (e : Fin 128) :
    kblk m c t (ix3 (0 : Fin 1) c' e) = ((x (bat t) (kcol (grid0.coords t) c') e : ℝ) : EReal) := by
  obtain ⟨-, -, hc2⟩ := coords_val t
  obtain ⟨-, ⟨e0, e1, e2⟩, -⟩ := idx_facts t
  show iblk m c 1 t (ix3 (0 : Fin 1) c' e) = _
  unfold iblk
  rw [View.read_apply]
  show V m c main_arg0 (((cfg0.win 1).blk t).view.emb (ix3 (0 : Fin 1) c' e)) = _
  refine (congrArg (V m c main_arg0 : (⟨3, ![8, 4096, 128]⟩ : Shape).Idx → EReal) ?_).trans
    (hX (bat t) (kcol (grid0.coords t) c') e)
  funext a
  apply Fin.ext
  match a with
  | ⟨0, _⟩ => show win0_1.index t (0 : Fin 3) * 1 + 1 * 0 = t.val / 8; omega
  | ⟨1, _⟩ => show win0_1.index t (1 : Fin 3) * 1024 + 1 * c'.val = 1024 * (grid0.coords t 2).val + c'.val; omega
  | ⟨2, _⟩ => show win0_1.index t (2 : Fin 3) * 128 + 1 * e.val = e.val; omega

/-- The value block holds the same rows of the second argument. -/
theorem vblk_apply (c : Dev nD) (v : Arr) (hV : Holds (V m c main_arg1) v) (t : Fin cfg0.N) (c' : Fin 1024) (e : Fin 128) :
    vblk m c t (ix3 (0 : Fin 1) c' e) = ((v (bat t) (kcol (grid0.coords t) c') e : ℝ) : EReal) := by
  obtain ⟨-, -, hc2⟩ := coords_val t
  obtain ⟨-, -, ⟨e0, e1, e2⟩⟩ := idx_facts t
  show iblk m c 2 t (ix3 (0 : Fin 1) c' e) = _
  unfold iblk
  rw [View.read_apply]
  show V m c main_arg1 (((cfg0.win 2).blk t).view.emb (ix3 (0 : Fin 1) c' e)) = _
  refine (congrArg (V m c main_arg1 : (⟨3, ![8, 4096, 128]⟩ : Shape).Idx → EReal) ?_).trans
    (hV (bat t) (kcol (grid0.coords t) c') e)
  funext a
  apply Fin.ext
  match a with
  | ⟨0, _⟩ => show win0_2.index t (0 : Fin 3) * 1 + 1 * 0 = t.val / 8; omega
  | ⟨1, _⟩ => show win0_2.index t (1 : Fin 3) * 1024 + 1 * c'.val = 1024 * (grid0.coords t 2).val + c'.val; omega
  | ⟨2, _⟩ => show win0_2.index t (2 : Fin 3) * 128 + 1 * e.val = e.val; omega

end Cert.KernelIdeal.Blocks

end
-- ==== Proof.KI.Invariant.lean ====
/-
  The streaming softmax's state after every grid point. Within one batch and one query block the four key tiles are
  visited in order; after the tile `t % 4`, row `r` of the three scratch buffers holds the row's maximum masked score
  over the columns up to the tile's end, the sum of the weights over those columns against that maximum, and the
  weighted sum of the value rows — by induction along the four tiles, the first tile from the reset values, each later
  tile from what the tile before left. After the last tile the output block holds the row's attention.
-/
import proofs.«410645_j59167469470174_3_alg».proof.Proof.KI.Pieces
import proofs.«410645_j59167469470174_3_alg».proof.Proof.KI.Blocks
import proofs.«410645_j59167469470174_3_alg».proof.Proof.KI.Steps

noncomputable section

namespace Cert.KernelIdeal.Inv

open Idealize.ShloMosaic Idealize.ShloMosaic.ValueIdx Cert.KernelIdeal Cert.KernelIdeal.Gen Cert.Attn
open Cert.KernelIdeal.Steps Cert.KernelIdeal.Blocks

variable (m : (ℓ : Loc nD τ sig) → Buf (Elt Ideal) ℓ) (sc D : ℝ) (hL : Lits sc D) (c : Dev nD) (x v : Arr)
  (hX : Holds (V m c main_arg0) x) (hV : Holds (V m c main_arg1) v)

/-- Row `r` of grid point `t`'s query block: its scores against every key of the batch. -/
abbrev srow (t : Fin cfg0.N) (r : Fin 2048) : Fin 4096 → ℝ := scoreK sc D x (bat t) (qrow (grid0.coords t) r)

/-- Row `r` of the scratch triple `(M, L, A)` is the softmax state of global row `ι` of batch `b` over the columns
    before `N`: the running maximum, the sum of the weights against it, and the weighted sum of the value rows. -/
def RowState (M L : Vec Ideal S2048x1 .f32) (A : Vec Ideal S2048x128 .f32) (r : Fin 2048) (b : Fin 8) (ι : Fin 4096)
    (N : ℕ) : Prop :=
  M (ix2 r (0 : Fin 1)) = ((pmax (scoreK sc D x b ι) ι N : ℝ) : EReal)
  ∧ L (ix2 r (0 : Fin 1)) = ((psum (scoreK sc D x b ι) ι (pmax (scoreK sc D x b ι) ι N) N : ℝ) : EReal)
  ∧ ∀ e : Fin 128, A (ix2 r e)
      = ((pacc (scoreK sc D x b ι) ι (fun j => v b j e) (pmax (scoreK sc D x b ι) ι N) N : ℝ) : EReal)

/-- The state is a statement about the triple's contents only: equal triples carry it alike. -/
theorem RowState.of_eq {M M' L L' : Vec Ideal S2048x1 .f32} {A A' : Vec Ideal S2048x128 .f32} (hM : M = M') (hL' : L = L')
    (hA : A = A') {r : Fin 2048} {b : Fin 8} {ι : Fin 4096} {N : ℕ} (h : RowState sc D x v M' L' A' r b ι N) :
    RowState sc D x v M L A r b ι N := by
  subst hM hL' hA
  exact h

section Step

variable (b : Fin 8) (i : grid0.Coords)
  (x0 : Vec Ideal S1x2048x128 .f32) (x1 x2 : Vec Ideal S1x1024x128 .f32)
  (hq : ∀ (r : Fin 2048) (e : Fin 128), x0 (ix3 (0 : Fin 1) r e) = ((x b (qrow i r) e : ℝ) : EReal))
  (hk : ∀ (c : Fin 1024) (e : Fin 128), x1 (ix3 (0 : Fin 1) c e) = ((x b (kcol i c) e : ℝ) : EReal))
  (hv : ∀ (c : Fin 1024) (e : Fin 128), x2 (ix3 (0 : Fin 1) c e) = ((v b (kcol i c) e : ℝ) : EReal))

include hL hq hk hv in
/-- The first key tile: from the reset values, the state over the first tile's columns. -/
theorem step_first (h0 : (i 2).val = 0) (r : Fin 2048) (N' : ℕ) (hN' : N' = 1024) :
    RowState sc D x v
      (k0_pay5 (F := Ideal) (k0_pay11 (F := Ideal) i x0 x1 (k0_pay7 (F := Ideal))))
      (k0_pay3 (F := Ideal) (k0_pay10 (F := Ideal) i x0 x1) (k0_pay7 (F := Ideal)) (k0_pay11 (F := Ideal) i x0 x1 (k0_pay7 (F := Ideal)))
        (k0_pay8 (F := Ideal)))
      (k0_pay4 (F := Ideal) (k0_pay10 (F := Ideal) i x0 x1) (k0_pay7 (F := Ideal)) (k0_pay11 (F := Ideal) i x0 x1 (k0_pay7 (F := Ideal)))
        x2 (k0_pay9 (F := Ideal)))
      r b (qrow i r) N' := by
  subst hN'
  exact ⟨max_first sc D hL x b i x0 x1 hq hk h0 r, sum_first sc D hL x b i x0 x1 hq hk h0 r,
    fun e => acc_first sc D hL x v b i x0 x1 x2 hq hk hv h0 r e⟩

include hL hq hk hv in
/-- A later key tile: from the state over the columns before the tile, the state over the columns up to its end. -/
theorem step_next (h0 : (i 2).val ≠ 0) (xs0 xs1 : Vec Ideal S2048x1 .f32) (xs2 : Vec Ideal S2048x128 .f32) (r : Fin 2048)
    (N N' : ℕ) (hN : N = 1024 * (i 2).val) (hN' : N' = 1024 * (i 2).val + 1024)
    (h : RowState sc D x v xs0 xs1 xs2 r b (qrow i r) N) :
    RowState sc D x v
      (k0_pay5 (F := Ideal) (k0_pay11 (F := Ideal) i x0 x1 xs0))
      (k0_pay3 (F := Ideal) (k0_pay10 (F := Ideal) i x0 x1) xs0 (k0_pay11 (F := Ideal) i x0 x1 xs0) xs1)
      (k0_pay4 (F := Ideal) (k0_pay10 (F := Ideal) i x0 x1) xs0 (k0_pay11 (F := Ideal) i x0 x1 xs0) x2 xs2)
      r b (qrow i r) N' := by
  subst hN hN'
  obtain ⟨hm, hl, ha⟩ := h
  exact ⟨max_next sc D hL x b i x0 x1 hq hk h0 xs0 r hm, sum_next sc D hL x b i x0 x1 hq hk h0 xs0 xs1 r hm hl,
    fun e => acc_next sc D hL x v b i x0 x1 x2 hq hk hv h0 xs0 xs2 r e hm (ha e)⟩

end Step

/-- Past the first key tile, the grid point before is of the same batch and the same query block, and its key tile ends
    where this point's begins. -/
theorem prev_facts (t t' : Fin cfg0.N) (h' : t'.val = t.val - 1) (h0 : ¬t.val % 4 = 0) (r : Fin 2048) :
    bat t' = bat t ∧ qrow (grid0.coords t') r = qrow (grid0.coords t) r
      ∧ 1024 * (t'.val % 4) + 1024 = 1024 * (grid0.coords t 2).val := by
  obtain ⟨-, h1, h2⟩ := coords_val t
  obtain ⟨-, h1', -⟩ := coords_val t'
  refine ⟨Fin.ext ?_, Fin.ext ?_, ?_⟩
  · show t'.val / 8 = t.val / 8
    omega
  · rw [qrow_val, qrow_val, h1, h1']
    omega
  · rw [h2]
    omega

include hL hX hV in
/-- After grid point `t`, row `r` of the scratch triple is the softmax state over the columns up to the end of the
    point's key tile: by induction on the point, the first tile of a reduction from the reset values, a later one from
    the state the point before left. -/
theorem state_all (n : ℕ) : ∀ (t : Fin cfg0.N), t.val = n → ∀ r : Fin 2048,
    RowState sc D x v (outsAt0 m c t.val t.isLt).2.1 (outsAt0 m c t.val t.isLt).2.2.1 (outsAt0 m c t.val t.isLt).2.2.2
      r (bat t) (qrow (grid0.coords t) r) (1024 * (t.val % 4) + 1024) := by
  induction n using Nat.strong_induction_on with
  | _ n ih =>
    intro t ht r
    obtain ⟨-, -, hc2⟩ := coords_val t
    by_cases h0 : t.val % 4 = 0
    · have h1 : ¬t.val % 4 = 3 := by omega
      rw [outsAt0_A m c t h0 h1]
      dsimp only
      refine RowState.of_eq sc D x v
        (sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
        (sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
        (sout0_A_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) ?_
      exact step_first sc D hL x v (bat t) (grid0.coords t) (qblk m c t) (kblk m c t) (vblk m c t)
        (qblk_apply m c x hX t) (kblk_apply m c x hX t) (vblk_apply m c v hV t) (by omega) r _ (by omega)
    · have hlt : t.val - 1 < cfg0.N := Nat.lt_of_le_of_lt (Nat.sub_le _ _) t.isLt
      obtain ⟨hb, hqr, hN⟩ := prev_facts t ⟨t.val - 1, hlt⟩ rfl h0 r
      have hprev := ih (t.val - 1) (by omega) ⟨t.val - 1, hlt⟩ rfl r
      rw [hb, hqr] at hprev
      have h2 : (grid0.coords t 2).val ≠ 0 := by omega
      by_cases h1 : t.val % 4 = 3
      · rw [outsAt0_C m c t h0 h1]
        dsimp only
        refine RowState.of_eq sc D x v
          (sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) ?_
        exact step_next sc D hL x v (bat t) (grid0.coords t) (qblk m c t) (kblk m c t) (vblk m c t)
          (qblk_apply m c x hX t) (kblk_apply m c x hX t) (vblk_apply m c v hV t) h2 _ _ _ r _ _ hN (by omega) hprev
      · rw [outsAt0_B m c t h0 h1]
        dsimp only
        refine RowState.of_eq sc D x v
          (sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
          (sout0_B_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) ?_
        exact step_next sc D hL x v (bat t) (grid0.coords t) (qblk m c t) (kblk m c t) (vblk m c t)
          (qblk_apply m c x hX t) (kblk_apply m c x hX t) (vblk_apply m c v hV t) h2 _ _ _ r _ _ hN (by omega) hprev

include hL hX hV in
/-- After grid point `t`: the running maximum, the running sum and the accumulator of row `r`, over the columns up to the
    end of the point's key tile. -/
theorem state_after (t : Fin cfg0.N) (r : Fin 2048) :
    (outsAt0 m c t.val t.isLt).2.1 (ix2 r (0 : Fin 1))
        = ((pmax (srow sc D x t r) (qrow (grid0.coords t) r) (1024 * (t.val % 4) + 1024) : ℝ) : EReal)
    ∧ (outsAt0 m c t.val t.isLt).2.2.1 (ix2 r (0 : Fin 1))
        = ((psum (srow sc D x t r) (qrow (grid0.coords t) r)
            (pmax (srow sc D x t r) (qrow (grid0.coords t) r) (1024 * (t.val % 4) + 1024)) (1024 * (t.val % 4) + 1024) : ℝ) : EReal)
    ∧ ∀ e : Fin 128, (outsAt0 m c t.val t.isLt).2.2.2 (ix2 r e)
        = ((pacc (srow sc D x t r) (qrow (grid0.coords t) r) (fun j => v (bat t) j e)
            (pmax (srow sc D x t r) (qrow (grid0.coords t) r) (1024 * (t.val % 4) + 1024)) (1024 * (t.val % 4) + 1024) : ℝ) : EReal) :=
  state_all m sc D hL c x v hX hV t.val t rfl r

include hL hX hV in
/-- After a grid point that closes a reduction (the last key tile), the output block holds the rows' attention. -/
theorem out_after (t : Fin cfg0.N) (h3 : t.val % 4 = 3) (r : Fin 2048) (e : Fin 128) :
    (outsAt0 m c t.val t.isLt).1 (ix3 (0 : Fin 1) r e)
      = ((attnK (srow sc D x t r) (qrow (grid0.coords t) r) (fun j => v (bat t) j e) : ℝ) : EReal) := by
  have h1 : t.val % 4 = 3 := h3
  have h0 : ¬t.val % 4 = 0 := by omega
  obtain ⟨-, -, hc2⟩ := coords_val t
  have hlt : t.val - 1 < cfg0.N := Nat.lt_of_le_of_lt (Nat.sub_le _ _) t.isLt
  obtain ⟨hb, hqr, hN⟩ := prev_facts t ⟨t.val - 1, hlt⟩ rfl h0 r
  have hprev := state_all m sc D hL c x v hX hV (t.val - 1) ⟨t.val - 1, hlt⟩ rfl r
  rw [hb, hqr] at hprev
  have h2 : (grid0.coords t 2).val ≠ 0 := by omega
  obtain ⟨-, hl, ha⟩ := step_next sc D hL x v (bat t) (grid0.coords t) (qblk m c t) (kblk m c t) (vblk m c t)
    (qblk_apply m c x hX t) (kblk_apply m c x hX t) (vblk_apply m c v hV t) h2 _ _ _ r _ 4096 hN (by omega) hprev
  rw [outsAt0_C m c t h0 h1]
  dsimp only
  refine (congrFun (out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 (0 : Fin 1) r e)).trans ?_
  exact out_last (srow sc D x t r) (qrow (grid0.coords t) r) (fun j => v (bat t) j e) _ _ r e (ha e) hl

end Cert.KernelIdeal.Inv

end
-- ==== Proof.KI.Final.lean ====
/-
  The output array after the run, entry by entry. The output window's block is written back at the grid points that
  close a reduction (one per batch and query block); those sixteen blocks tile the array: entry (batch `b`, row `i`,
  feature `e`) lies in the block of batch `b`, query block `i / 2048`, at row `i % 2048`, and holds what that point's
  body stored there — the attention of row `i`.
-/
import proofs.«410645_j59167469470174_3_alg».proof.Proof.KI.Invariant
import Idealize.ShloMosaic.Lib.Pipeline.Value

noncomputable section

namespace Cert.KernelIdeal.Final

open Idealize.ShloMosaic Idealize.ShloMosaic.ValueIdx Cert.KernelIdeal Cert.KernelIdeal.Gen Cert.Attn
open Cert.KernelIdeal.Steps Cert.KernelIdeal.Blocks Cert.KernelIdeal.Inv

variable (m : (ℓ : Loc nD τ sig) → Buf (Elt Ideal) ℓ) (sc D : ℝ) (hL : Lits sc D) (c : Dev nD) (x v : Arr)
  (hX : Holds (V m c main_arg0) x) (hV : Holds (V m c main_arg1) v)

/-- The output array as the proof data compute it after the last grid point, as a vector of its literal shape. -/
abbrev outArr : Vec Ideal S8x4096x128 .f32 := (dats m 0 c).arrAt 3 cfg0.N

/-- The whole output array the kernel computes, entry by entry: the attention of each row. -/
def attnArr : S8x4096x128.Idx → EReal := fun j =>
  ((attnK (scoreK sc D x ⟨(j 0).val, (j 0).isLt⟩ ⟨(j 1).val, (j 1).isLt⟩) ⟨(j 1).val, (j 1).isLt⟩
      (fun j' => v ⟨(j 0).val, (j 0).isLt⟩ j' ⟨(j 2).val, (j 2).isLt⟩) : ℝ) : EReal)

/-- At entry (b, i, e) it is the attention of row `i` of batch `b` against column `e` of `v`. -/
theorem attnArr_apply (b : Fin 8) (i : Fin 4096) (e : Fin 128) :
    attnArr sc D x v (ix3 b i e) = ((attnK (scoreK sc D x b i) i (fun j => v b j e) : ℝ) : EReal) := rfl

/-- The output window's block index, decided once over the grid: (batch, query block, 0). -/
theorem idx_facts3 : ∀ t : Fin cfg0.N,
    win0_3.index t (0 : Fin 3) = t.val / 8 ∧ win0_3.index t (1 : Fin 3) = t.val / 4 % 2 ∧ win0_3.index t (2 : Fin 3) = 0 :=
  (by decide +kernel : ∀ t : Fin grid0.N, _)

/-- Where entry (z, r, e) of the output block of grid point `t` sits in the output array: batch `t / 8`, row
    `2048 * (t / 4 % 2) + r`, feature `e`. -/
theorem emb3 (t : Fin cfg0.N) (z : Fin 1) (r : Fin 2048) (e : Fin 128) :
    ((cfg0.win 3).blk t).view.emb (ix3 z r e) = ix3 (bat t) (qrow (grid0.coords t) r) e := by
  obtain ⟨-, hc1, -⟩ := coords_val t
  obtain ⟨e0, e1, e2⟩ := idx_facts3 t
  funext a
  apply Fin.ext
  match a with
  | ⟨0, _⟩ => show win0_3.index t (0 : Fin 3) * 1 + 1 * z.val = t.val / 8; have := z.isLt; omega
  | ⟨1, _⟩ => show win0_3.index t (1 : Fin 3) * 2048 + 1 * r.val = 2048 * (grid0.coords t 1).val + r.val; omega
  | ⟨2, _⟩ => show win0_3.index t (2 : Fin 3) * 128 + 1 * e.val = e.val; omega

include hL hX hV in
/-- What a grid point that closes a reduction writes back is its block of the whole array `attnArr`. -/
theorem flushed_eq (t : Fin cfg0.N) (hf : (cfg0.win 3).flush t = true) :
    (dats m 0 c).flushed 3 t = ((cfg0.win 3).blk t).view.read (Elt Ideal) (attnArr sc D x v) := by
  have h3 : t.val % 4 = 3 := (flush0_3 t).1 hf
  show (cfg0.win 3).cut (grid0.coords t) ((dats m 0 c).after 3 t) = _
  rw [after0_3]
  funext y
  obtain ⟨z, r, e, rfl⟩ : ∃ (z : Fin 1) (r : Fin 2048) (e : Fin 128), y = ix3 z r e :=
    ⟨y 0, y 1, y 2, eq_ix3 (n0 := 1) (n1 := 2048) (n2 := 128) y⟩
  rw [View.read_apply]
  show (outsAt0 m c t.val t.isLt).1 ((cfg0.win 3).xinj (grid0.coords t) (ix3 z r e))
    = attnArr sc D x v (((cfg0.win 3).blk t).view.emb (ix3 z r e))
  have hx : (cfg0.win 3).xinj (grid0.coords t) (ix3 z r e) = ix3 (0 : Fin 1) r e :=
    funext fun a => Fin.ext (by
      match a with
      | ⟨0, _⟩ => exact Fin.val_eq_zero z
      | ⟨1, _⟩ => rfl
      | ⟨2, _⟩ => rfl)
  rw [emb3 t z r e, attnArr_apply, hx]
  exact out_after m sc D hL c x v hX hV t h3 r e

/-- An entry of the output array is in grid point `t`'s block iff each coordinate is in the block's range on its axis. -/
theorem mem_blk3 (t : Fin cfg0.N) (j : S8x4096x128.Idx) :
    j ∈ ((cfg0.win 3).blk t).view.set ↔ ∀ a : Fin 3, win0_3.index t a * S1x2048x128.size a ≤ (j a).val
      ∧ (j a).val < win0_3.index t a * S1x2048x128.size a + S1x2048x128.size a := by
  show j ∈ ((View.whole main_v0).slice (win0_3.rect t)).set ↔ _
  rw [View.set_slice_whole, Rect.mem_set_unit]
  exact Iff.rfl

include hL hX hV in
/-- Every entry of the output array after the run is the attention of its row. -/
theorem final_apply (b : Fin 8) (i : Fin 4096) (e : Fin 128) :
    outArr m c (ix3 b i e) = ((attnK (scoreK sc D x b i) i (fun j => v b j e) : ℝ) : EReal) := by
  have hb := b.isLt
  have hi := i.isLt
  obtain ⟨t, ht⟩ : ∃ t : Fin cfg0.N, t.val = 8 * b.val + 4 * (i.val / 2048) + 3 :=
    ⟨⟨8 * b.val + 4 * (i.val / 2048) + 3, lt_of_lt_of_eq (show _ < 64 by omega) N_0.symm⟩, rfl⟩
  have h3 : t.val % 4 = 3 := by omega
  have hf : (cfg0.win 3).flush t = true := (flush0_3 t).2 h3
  have hmem : ix3 b i e ∈ ((cfg0.win 3).blk t).view.set := by
    rw [mem_blk3]
    obtain ⟨e0, e1, e2⟩ := idx_facts3 t
    intro a
    match a with
    | ⟨0, _⟩ =>
      show win0_3.index t (0 : Fin 3) * 1 ≤ b.val ∧ b.val < win0_3.index t (0 : Fin 3) * 1 + 1
      omega
    | ⟨1, _⟩ =>
      show win0_3.index t (1 : Fin 3) * 2048 ≤ i.val ∧ i.val < win0_3.index t (1 : Fin 3) * 2048 + 2048
      omega
    | ⟨2, _⟩ =>
      show win0_3.index t (2 : Fin 3) * 128 ≤ e.val ∧ e.val < win0_3.index t (2 : Fin 3) * 128 + 128
      have := e.isLt
      omega
  exact ((dats m 0 c).arrAt_apply_of_mem 3 (attnArr sc D x v) (flushed_eq m sc D hL c x v hX hV) cfg0.N t (ix3 b i e)
    t.isLt hf hmem).trans (attnArr_apply sc D x v b i e)

end Cert.KernelIdeal.Final

end
-- ==== Proof.RefValue.lean ====
/-
  What the reference program's result holds, entry by entry: when its two argument arrays hold the real arrays `x`
  and `v`, entry (batch `b`, row `i`, feature `e`) of the result is the real number `attnR` of row `i`'s scores against
  every key of the batch (`scoreR`) and of column `e` of `v` — the keys normalised by their floored norm, the inner
  products scaled, the diagonal masked, the softmax weights normalised, then the average of `v`'s rows.
-/
import proofs.«410645_j59167469470174_3_alg».proof.Proof.SpecVec
import proofs.«410645_j59167469470174_3_alg».proof.Proof.SpecLaws
import proofs.«410645_j59167469470174_3_alg».proof.Proof.Gen.ReferenceIdeal.Read
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.Attn

/-- The array type of the two arguments. -/
abbrev ArgT := (⟨S8x4096x128, .f32⟩ : BufTy).Contents (Elt Ideal)

/-- A finite sum of reals, each read as an extended real, is the real sum read as an extended real. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The larger of two reals, read as an extended real, is the larger of the two readings. -/
theorem coe_max (a b : ℝ) : ((max a b : ℝ) : EReal) = max (a : EReal) (b : EReal) :=
  EReal.coe_strictMono.monotone.map_max

/-- The word of negative infinity denotes `⊥`. -/
theorem ofBits_neg_inf : Ideal.ofBits .f32 0xFF800000#32 = (⊥ : EReal) := by
  simp [Ideal.ofBits, Ideal.ieee]

/-! ## The keys: the norm, its floor, the division -/

/-- The sum of the squares of row `j`: the squared norm. -/
theorem sumsq_val (X : ArgT) (x : Arr) (hX : Holds X x) (b : Fin 8) (j : Fin 4096) :
    Read.val_main_call0_v1 (F := Ideal) X (ix2 b j) = ((nsq x b j : ℝ) : EReal) := by
  have e : ∀ k : Fin 128, Read.idx_main_call0_v1 (ix2 b j) k = ix3 b j k := fun k =>
    funext fun a => Fin.ext (by match a with | ⟨0, _⟩ => rfl | ⟨1, _⟩ => rfl | ⟨2, _⟩ => rfl)
  rw [Read.val_main_call0_v1_apply, Read.val_main_call0_cst_apply]
  simp only [Read.val_main_call0_v0_apply, Ideal.ofBits_def, Ideal.ofBits_zero_f32, Ideal.mulf_def, zero_add, e,
    hX b j, ← EReal.coe_mul]
  exact coe_sum _ _

/-- The squared norm is not negative. -/
theorem sumsq_nonneg (x : Arr) (b : Fin 8) (j : Fin 4096) : 0 ≤ nsq x b j :=
  Finset.sum_nonneg fun e _ => mul_self_nonneg _

/-- The norm stage: the square root of the squared norm. -/
theorem norm_val (X : ArgT) (x : Arr) (hX : Holds X x) (b : Fin 8) (j : Fin 4096) (z : Fin 1) :
    Read.val_main_v0 (F := Ideal) X (ix3 b j z) = ((Real.sqrt (nsq x b j) : ℝ) : EReal) := by
  have e : Read.idx_main_call0_v2 (ix3 b j z) = ix2 b j :=
    funext fun a => Fin.ext (by match a with | ⟨0, _⟩ => rfl | ⟨1, _⟩ => rfl)
  rw [Read.val_main_v0_apply, Read.val_main_call0_v2_apply, e, sumsq_val X x hX, Ideal.hostUnary_sqrt_def,
    Ideal.sqrt_coe, if_neg (not_lt.2 (sumsq_nonneg x b j))]

/-- The floored norm: the larger of the norm and `D`. -/
theorem floor_val (sc D : ℝ) (hL : Lits sc D) (X : ArgT) (x : Arr) (hX : Holds X x) (b : Fin 8) (j : Fin 4096)
    (z : Fin 1) :
    Read.val_main_v2 (F := Ideal) X (ix3 b j z) = ((max (Real.sqrt (nsq x b j)) D : ℝ) : EReal) := by
  rw [Read.val_main_v2_apply, norm_val X x hX, Read.val_main_v1_apply, Read.val_main_cst_apply, Ideal.ofBits_def,
    hL.D_eq, Ideal.maximumf_def, coe_max]

/-- The floored norm is positive. -/
theorem floor_pos (D : ℝ) (hD : 0 < D) (x : Arr) (b : Fin 8) (j : Fin 4096) : 0 < max (Real.sqrt (nsq x b j)) D :=
  lt_of_lt_of_le hD (le_max_right _ _)

/-- Dividing a real by a nonzero real, both read as extended reals, is the real quotient. -/
theorem div_coe_coe (a y : ℝ) (hy : y ≠ 0) : Ideal.div (a : EReal) (y : EReal) = ((a / y : ℝ) : EReal) := by
  rw [Ideal.div_coe hy, ← EReal.coe_mul, mul_one_div]

/-- The key stage: the row over its floored norm. -/
theorem key_val (sc D : ℝ) (hL : Lits sc D) (X : ArgT) (x : Arr) (hX : Holds X x) (b : Fin 8) (j : Fin 4096)
    (e : Fin 128) :
    Read.val_main_v4 (F := Ideal) X (ix3 b j e) = ((keyR D x b j e : ℝ) : EReal) := by
  have e3 : Read.idx_main_v3 (ix3 b j e) = ix3 b j (0 : Fin 1) :=
    funext fun a => Fin.ext (by match a with | ⟨0, _⟩ => rfl | ⟨1, _⟩ => rfl | ⟨2, _⟩ => rfl)
  rw [Read.val_main_v4_apply, Read.val_main_v3_apply, e3, floor_val sc D hL X x hX, hX b j e, Ideal.hostDivf_def,
    div_coe_coe _ _ (ne_of_gt (floor_pos D hL.D_pos x b j))]
  rfl

/-! ## The scores -/

/-- The score stage: the inner product of row `i` with key `j`, times `sc`. -/
theorem score_val (sc D : ℝ) (hL : Lits sc D) (X : ArgT) (x : Arr) (hX : Holds X x) (b : Fin 8) (i j : Fin 4096) :
    Read.val_main_v7 (F := Ideal) X (ix3 b i j) = ((scoreR sc D x b i j : ℝ) : EReal) := by
  have el : ∀ k : Fin 128, Read.lidx_main_v5 (ix3 b i j) k = ix3 b i k := fun k =>
    funext fun a => Fin.ext (by match a with | ⟨0, _⟩ => rfl | ⟨1, _⟩ => rfl | ⟨2, _⟩ => rfl)
  have er : ∀ k : Fin 128, Read.ridx_main_v5 (ix3 b i j) k = ix3 b j k := fun k =>
    funext fun a => Fin.ext (by match a with | ⟨0, _⟩ => rfl | ⟨1, _⟩ => rfl | ⟨2, _⟩ => rfl)
  rw [Read.val_main_v7_apply, Read.val_main_v5_apply, Read.val_main_v6_apply, Read.val_main_cst_0_apply,
    Ideal.ofBits_def, hL.sc_eq, Ideal.mulf_def]
  simp only [el, er, hX b i, key_val sc D hL X x hX b j, ← EReal.coe_mul]
  rw [coe_sum, ← EReal.coe_mul]
  rfl

/-! ## The diagonal mask -/

/-- The mask's condition word at (row `i`, column `j`) is set exactly on the diagonal: both counters are below
    `2 ^ 32`, so their words are equal only when the counters are. -/
theorem diag_word (i j : Fin 4096) :
    IntOp.cmpi .eq (IntOp.addi (BitVec.ofNat 32 i.val) 0#32) (BitVec.ofNat 32 j.val) = if j = i then 1#1 else 0#1 := by
  unfold IntOp.cmpi IntOp.addi
  rw [BitVec.add_zero]
  by_cases h : j = i
  · subst h; simp
  · rw [if_neg h]
    have hne : BitVec.ofNat 32 i.val ≠ BitVec.ofNat 32 j.val := by
      intro e
      have e' := congrArg BitVec.toNat e
      simp only [BitVec.toNat_ofNat] at e'
      have hi := i.isLt
      have hj := j.isLt
      rw [Nat.mod_eq_of_lt (by omega), Nat.mod_eq_of_lt (by omega)] at e'
      exact h (Fin.ext e'.symm)
    rw [beq_false_of_ne hne]
    rfl

/-- The condition of the select, broadcast over the batch, at (b, i, j). -/
theorem cond_val (b : Fin 8) (i j : Fin 4096) :
    Read.val_main_call1_v1 (F := Ideal) (ix3 b i j) = if j = i then 1#1 else 0#1 := by
  have e1 : Read.idx_main_call1_v1 (ix3 b i j) = ix3 (0 : Fin 1) i j :=
    funext fun a => Fin.ext (by match a with | ⟨0, _⟩ => rfl | ⟨1, _⟩ => rfl | ⟨2, _⟩ => rfl)
  have e2 : Read.idx_main_v13 (ix3 (0 : Fin 1) i j) = ix2 i j :=
    funext fun a => Fin.ext (by match a with | ⟨0, _⟩ => rfl | ⟨1, _⟩ => rfl)
  rw [Read.val_main_call1_v1_apply, e1, Read.val_main_v13_apply, e2, Read.val_main_v12_apply, Read.val_main_v11_apply,
    Read.val_main_v8_apply, Read.val_main_v9_apply, Read.val_main_v10_apply, Read.val_main_c_apply]
  exact diag_word i j

/-- The masked scores: `⊥` on the diagonal, the score off it. -/
theorem masked_val (sc D : ℝ) (hL : Lits sc D) (X : ArgT) (x : Arr) (hX : Holds X x) (b : Fin 8) (i j : Fin 4096) :
    Read.val_main_v14 (F := Ideal) X (ix3 b i j) = ms (scoreR sc D x b i) i j := by
  rw [Read.val_main_v14_apply, cond_val, score_val sc D hL X x hX, Read.val_main_call1_v2_apply,
    Read.val_main_call1_v0_apply, Read.val_main_cst_1_apply, Ideal.ofBits_def, ofBits_neg_inf]
  unfold ms
  by_cases h : j = i
  · rw [if_pos h, if_pos h, select_one]
  · rw [if_neg h, if_neg h, select_zero]

/-! ## The row maximum -/

/-- The reduced index (b, i) with column `k` put back on the last axis is (b, i, k). -/
theorem lift_col (h : S8x4096x4096.Reduces [2] S8x4096) (b : Fin 8) (i : Fin 4096) (k : Fin (S8x4096x4096.size 2)) :
    h.lift (ix2 b i) k = ix3 b i (⟨k.val, k.isLt⟩ : Fin 4096) := by
  funext c; apply Fin.ext
  fin_cases c <;> rfl

/-- A maximum-reduce over the last axis, from an initial value `⊥`, is at (b, i) the supremum of row (b, i) of its
    operand: a fold of `max` from `⊥` is the supremum. -/
theorem reduce_max_sup (y : S8x4096x4096.Idx → EReal) (init : S_.Idx → EReal)
    (hinit : init (Shape.Idx.first Gen.h_S_) = ⊥) (b : Fin 8) (i : Fin 4096) :
    Host.reduce (FloatOps.maximumf (F := Ideal) (φ := .f32)) y init Gen.reducesTo_S8x4096x4096_S8x4096_d2 Gen.h_S_ (ix2 b i)
      = (Finset.univ : Finset (Fin 4096)).sup fun j => y (ix3 b i j) := by
  have h : S8x4096x4096.Reduces [2] S8x4096 := by decide
  refine (Host.reduce_eq_fold_single (FloatOps.maximumf (F := Ideal) (φ := .f32)) y init
    Gen.reducesTo_S8x4096x4096_S8x4096_d2 h Gen.h_S_ (ix2 b i)).trans ?_
  rw [hinit]
  have hf : (y ∘ h.lift (ix2 b i)) = fun k : Fin (S8x4096x4096.size 2) => y (ix3 b i (⟨k.val, k.isLt⟩ : Fin 4096)) :=
    funext fun k => congrArg y (lift_col h b i k)
  rw [hf]
  rfl

/-- The reference's maximum-reduce at (b, i) is the supremum of row (b, i) of the masked scores. -/
theorem rowmax_sup (X : ArgT) (b : Fin 8) (i : Fin 4096) :
    Read.val_main_v15 (F := Ideal) X (ix2 b i)
      = (Finset.univ : Finset (Fin 4096)).sup fun j => Read.val_main_v14 (F := Ideal) X (ix3 b i j) := by
  unfold Read.val_main_v15
  exact reduce_max_sup _ _ (by rw [Read.val_main_cst_2_apply, Ideal.ofBits_def, ofBits_neg_inf]) b i

/-- The row maximum of the masked scores is the specification's maximum over all columns, a real number. -/
theorem rowmax_val (sc D : ℝ) (hL : Lits sc D) (X : ArgT) (x : Arr) (hX : Holds X x) (b : Fin 8) (i : Fin 4096) :
    Read.val_main_v15 (F := Ideal) X (ix2 b i) = ((pmax (scoreR sc D x b i) i 4096 : ℝ) : EReal) := by
  rw [rowmax_sup, ← pmaxE_eq_coe _ _ 4096 (by norm_num)]
  unfold pmaxE
  rw [cols_full]
  exact congrArg (Finset.univ : Finset (Fin 4096)).sup (funext fun j => masked_val sc D hL X x hX b i j)

/-- The larger of `⊥` and the row maximum is the row maximum. -/
theorem shift_row_val (sc D : ℝ) (hL : Lits sc D) (X : ArgT) (x : Arr) (hX : Holds X x) (b : Fin 8) (i : Fin 4096) :
    Read.val_main_v17 (F := Ideal) X (ix2 b i) = ((pmax (scoreR sc D x b i) i 4096 : ℝ) : EReal) := by
  rw [Read.val_main_v17_apply, rowmax_val sc D hL X x hX, Read.val_main_v16_apply, Read.val_main_cst_3_apply,
    Ideal.ofBits_def, ofBits_neg_inf, Ideal.maximumf_def]
  exact max_eq_right bot_le

/-- The shift, broadcast along the row: at every column of row (b, i) it is the row's maximum. -/
theorem shift_val (sc D : ℝ) (hL : Lits sc D) (X : ArgT) (x : Arr) (hX : Holds X x) (b : Fin 8) (i j : Fin 4096) :
    Read.val_main_v19 (F := Ideal) X (ix3 b i j) = ((pmax (scoreR sc D x b i) i 4096 : ℝ) : EReal) := by
  have e19 : Read.idx_main_v19 (ix3 b i j) = ix3 b i (0 : Fin 1) :=
    funext fun a => Fin.ext (by match a with | ⟨0, _⟩ => rfl | ⟨1, _⟩ => rfl | ⟨2, _⟩ => rfl)
  have e18 : Read.idx_main_v18 (ix3 b i (0 : Fin 1)) = ix2 b i :=
    funext fun a => Fin.ext (by match a with | ⟨0, _⟩ => rfl | ⟨1, _⟩ => rfl)
  rw [Read.val_main_v19_apply, e19, Read.val_main_v18_apply, e18, shift_row_val sc D hL X x hX]

/-! ## The weights -/

/-- The exponential of the shifted masked score is the softmax weight: on the diagonal `⊥` minus a real is `⊥`, whose
    exponential is zero; off it the exponential of the real difference. -/
theorem weight_val (sc D : ℝ) (hL : Lits sc D) (X : ArgT) (x : Arr) (hX : Holds X x) (b : Fin 8) (i j : Fin 4096) :
    Read.val_main_v21 (F := Ideal) X (ix3 b i j)
      = ((wgt (scoreR sc D x b i) i (pmax (scoreR sc D x b i) i 4096) j : ℝ) : EReal) := by
  rw [Read.val_main_v21_apply, Read.val_main_v20_apply, masked_val sc D hL X x hX, shift_val sc D hL X x hX,
    Ideal.subf_def, Ideal.hostUnary_exp_def]
  unfold ms wgt
  by_cases h : j = i
  · rw [if_pos h, if_pos h, EReal.bot_sub, Ideal.exp_bot, EReal.coe_zero]
  · rw [if_neg h, if_neg h, ← EReal.coe_sub, Ideal.exp_coe]

/-- The sum of a row's weights. -/
theorem wsum_val (sc D : ℝ) (hL : Lits sc D) (X : ArgT) (x : Arr) (hX : Holds X x) (b : Fin 8) (i : Fin 4096) :
    Read.val_main_v22 (F := Ideal) X (ix2 b i)
      = ((∑ j : Fin 4096, wgt (scoreR sc D x b i) i (pmax (scoreR sc D x b i) i 4096) j : ℝ) : EReal) := by
  have e : ∀ k : Fin 4096, Read.idx_main_v22 (ix2 b i) k = ix3 b i k := fun k =>
    funext fun a => Fin.ext (by match a with | ⟨0, _⟩ => rfl | ⟨1, _⟩ => rfl | ⟨2, _⟩ => rfl)
  rw [Read.val_main_v22_apply, Read.val_main_cst_4_apply, Ideal.ofBits_def, Ideal.ofBits_zero_f32, zero_add]
  simp only [e, weight_val sc D hL X x hX b i]
  exact coe_sum _ _

/-- The sum of a row's weights is positive: the maximal off-diagonal column weighs one. -/
theorem wsum_pos (s : Fin 4096 → ℝ) (i : Fin 4096) : 0 < ∑ j : Fin 4096, wgt s i (pmax s i 4096) j := by
  have h := psum_pos s i 4096 (by norm_num)
  unfold psum at h
  rwa [cols_full] at h

/-- The normalised weight: the weight over the sum of the row's weights. -/
theorem nweight_val (sc D : ℝ) (hL : Lits sc D) (X : ArgT) (x : Arr) (hX : Holds X x) (b : Fin 8) (i j : Fin 4096) :
    Read.val_main_v25 (F := Ideal) X (ix3 b i j)
      = ((wgt (scoreR sc D x b i) i (pmax (scoreR sc D x b i) i 4096) j
          / ∑ j' : Fin 4096, wgt (scoreR sc D x b i) i (pmax (scoreR sc D x b i) i 4096) j' : ℝ) : EReal) := by
  have e24 : Read.idx_main_v24 (ix3 b i j) = ix3 b i (0 : Fin 1) :=
    funext fun a => Fin.ext (by match a with | ⟨0, _⟩ => rfl | ⟨1, _⟩ => rfl | ⟨2, _⟩ => rfl)
  have e23 : Read.idx_main_v23 (ix3 b i (0 : Fin 1)) = ix2 b i :=
    funext fun a => Fin.ext (by match a with | ⟨0, _⟩ => rfl | ⟨1, _⟩ => rfl)
  rw [Read.val_main_v25_apply, weight_val sc D hL X x hX, Read.val_main_v24_apply, e24, Read.val_main_v23_apply, e23,
    wsum_val sc D hL X x hX, Ideal.hostDivf_def, div_coe_coe _ _ (ne_of_gt (wsum_pos _ _))]

/-! ## The result -/

/-- The reference's last stage at an entry is the specification's `attnR`. -/
theorem ref_value (sc D : ℝ) (hL : Lits sc D)
    (X V : (⟨S8x4096x128, .f32⟩ : BufTy).Contents (Elt Ideal)) (x v : Arr) (hX : Holds X x) (hV : Holds V v)
    (b : Fin 8) (i : Fin 4096) (e : Fin 128) :
    Cert.ReferenceIdeal.Read.val_main_v26 (F := Ideal) X V (ix3 b i e)
      = ((attnR (scoreR sc D x b i) i (fun j => v b j e) : ℝ) : EReal) := by
  have el : ∀ k : Fin 4096, Read.lidx_main_v26 (ix3 b i e) k = ix3 b i k := fun k =>
    funext fun a => Fin.ext (by match a with | ⟨0, _⟩ => rfl | ⟨1, _⟩ => rfl | ⟨2, _⟩ => rfl)
  have er : ∀ k : Fin 4096, Read.ridx_main_v26 (ix3 b i e) k = ix3 b k e := fun k =>
    funext fun a => Fin.ext (by match a with | ⟨0, _⟩ => rfl | ⟨1, _⟩ => rfl | ⟨2, _⟩ => rfl)
  have hv : ∀ k : Fin 4096, V (ix3 b k e) = ((v b k e : ℝ) : EReal) := fun k => hV b k e
  rw [Read.val_main_v26_apply]
  simp only [el, er, nweight_val sc D hL X x hX b i, hv, ← EReal.coe_mul]
  rw [coe_sum]
  rfl

end Cert.ReferenceIdeal.RefValue

end
-- ==== Proof.FiniteInputs.lean ====
/-
  What the precondition gives: it says every entry of both argument arrays has absolute value below plus infinity,
  so every entry is a real number, and each argument array holds a real array.
-/
import proofs.«410645_j59167469470174_3_alg».proof.Pre_finite_inputs
import proofs.«410645_j59167469470174_3_alg».proof.Proof.Gen.Pre_finite_inputs
import proofs.«410645_j59167469470174_3_alg».proof.Proof.SpecVec
import Idealize.ShloMosaic.Lib.ReduceAll
import Idealize.ShloMosaic.Lib.ValueIdx

noncomputable section

namespace Cert.Finite

open Idealize.ShloMosaic Idealize.ShloMosaic.ValueIdx Cert.Attn

/-- The shape with no axis has one index. -/
instance : Subsingleton Cert.Pre_finite_inputs.S_.Idx := ⟨fun a b => funext fun d => d.elim0⟩

/-- The word the precondition compares against (exponent all ones, no sign, no fraction) denotes plus infinity. -/
theorem top_word : Ideal.ofBits .f32 0x7F800000#32 = (⊤ : EReal) := by
  simp [Ideal.ofBits, Ideal.ieee]

/-- An extended real whose absolute value (the larger of it and its negation) is below plus infinity is neither
    infinity, so it is a real number. -/
theorem real_of_abs_lt_top (a : EReal) (h : max a (-a) < ⊤) : a = ((a.toReal : ℝ) : EReal) := by
  have h1 : a ≠ ⊤ := by
    rintro rfl
    simp at h
  have h2 : a ≠ ⊥ := by
    rintro rfl
    simp at h
  exact (EReal.coe_toReal h1 h2).symm

/-- Where the comparison "absolute value below the bound" answers one and the bound is plus infinity, the entry is a
    real number. -/
theorem entry_real {S : Shape} (X bound : FVec Ideal S .f32) (k : S.Idx)
    (hb : bound k = Ideal.ofBits .f32 0x7F800000#32) (h : cmpf .olt (Host.absf X) bound k = 1#1) :
    (X k : EReal) = (((X k : EReal).toReal : ℝ) : EReal) := by
  have h' : BitVec.ofBool (decide (max (X k : EReal) (-(X k : EReal)) < bound k)) = 1#1 := h
  rw [hb, top_word] at h'
  refine real_of_abs_lt_top _ ?_
  by_contra hn
  rw [decide_eq_false hn] at h'
  exact absurd h' (by decide)

/-- If the printed precondition evaluates to all ones on the two arrays, each of them holds a real array. -/
theorem holds_of_fn (X V : FVec Ideal Cert.Pre_finite_inputs.S8x4096x128 .f32)
    (h : Cert.Pre_finite_inputs.fn (F := Ideal) X V = fun _ => 1#1) :
    ∃ x v : Arr, Holds X x ∧ Holds V v := by
  have h0 := congrFun h ValueIdx.ix0
  dsimp only [Cert.Pre_finite_inputs.fn] at h0
  obtain ⟨hX, hV⟩ := IntOp.andi_eq_one.1 h0
  have eX : ∀ k, (X k : EReal) = (((X k : EReal).toReal : ℝ) : EReal) := fun k =>
    entry_real X _ k rfl (Host.reduce_andi_all _ _ _ _ _ hX k)
  have eV : ∀ k, (V k : EReal) = (((V k : EReal).toReal : ℝ) : EReal) := fun k =>
    entry_real V _ k rfl (Host.reduce_andi_all _ _ _ _ _ hV k)
  exact ⟨fun b j e => (X (ix3 b j e) : EReal).toReal, fun b j e => (V (ix3 b j e) : EReal).toReal,
    fun b j e => eX (ix3 b j e), fun b j e => eV (ix3 b j e)⟩

end Cert.Finite

end
-- ==== Proof.lean ====
/-
  The certificate of a streaming masked-softmax attention kernel against its plain reference.

  Both programs take a shared query/key array `qk` and a value array `v` (8 batches, 4096 rows, 128 features). A key is a
  row of `qk` over its Euclidean norm floored at `D`; the score of query row `i` against key row `j` is their inner
  product times `sc`; the diagonal `j = i` is masked with minus infinity; each row's scores go through a softmax, and
  the weights average the rows of `v`. The reference does exactly that, whole arrays at a time. The kernel walks a grid
  of 8 batches x 2 query blocks x 4 key tiles: it folds `sc` and the norm into one reciprocal square root of the squared
  norm floored at the square of `D` (the one named constant whose value matters: the kernel's word is the rounding of
  that square, and it is read as the square itself), masks with a finite stand-in named minus infinity, keeps a
  running row maximum, a running sum of exponentials and a running weighted sum in three scratch buffers carried from
  tile to tile, and divides at the last tile.

  Frames: the kernel's query and key windows read one array, so that array is dealt to them by halves; the body's
  three control cases (a tile that opens a reduction, one in the middle, one that closes it) are run once each, and an
  invariant tracks the scratch buffers between grid points. The word-level kernel's frame is the same text at the
  word-level instance. The reference's frame is its run.
  Values, at the extended reals with every input entry a real number: after the tile `k` the scratch buffers hold the
  row's maximum, weight sum and weighted sum over the columns up to that tile's end (a shift of the maximum rescales
  every earlier weight by one exponential), so after the last tile the quotient is the row's softmax average; the
  reference's stages read entry by entry give the same number, the square root of the floored squared norm being the
  floored norm and dividing last being normalising first.
-/
import proofs.«410645_j59167469470174_3_alg».proof.Defs
import proofs.«410645_j59167469470174_3_alg».proof.Proof.Gen.Kernel
import proofs.«410645_j59167469470174_3_alg».proof.Proof.Gen.KernelIdeal
import proofs.«410645_j59167469470174_3_alg».proof.Proof.Gen.ReferenceIdeal
import proofs.«410645_j59167469470174_3_alg».proof.Proof.Gen.Pre_finite_inputs
import proofs.«410645_j59167469470174_3_alg».proof.Proof.Gen.ReferenceIdeal.Run
import proofs.«410645_j59167469470174_3_alg».proof.Proof.Gen.ReferenceIdeal.Read
import proofs.«410645_j59167469470174_3_alg».proof.Proof.K.Launch
import proofs.«410645_j59167469470174_3_alg».proof.Proof.KI.Launch
import proofs.«410645_j59167469470174_3_alg».proof.Proof.KI.Final
import proofs.«410645_j59167469470174_3_alg».proof.Proof.RefValue
import proofs.«410645_j59167469470174_3_alg».proof.Proof.FiniteInputs
import proofs.«410645_j59167469470174_3_alg».proof.Proof.Consts
import proofs.«410645_j59167469470174_3_alg».proof.Proof.SpecLaws
import Idealize.ShloMosaic.Adequacy
import Idealize.ShloMosaic.Init

noncomputable section

namespace Cert.Proof

open Idealize.ShloMosaic Idealize.ShloMosaic.ValueIdx Idealize.SL.Sem Cert.Attn

/-- The word-level kernel runs to the end and leaves its arguments as they were. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants denote what the certificate's table gives them: the square of the reference's norm floor,
    and minus infinity. -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
    IdealRules.named_const.statement Cert.KernelIdeal.κ "neg_big" .f32 0xFF333332#32 ⊥ rfl⟩

/-- From memories that agree on the arguments, with every input entry a real number, both programs end with the same
    result: entry by entry the kernel's streamed quotient is the reference's normalised average. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  obtain ⟨x, v, hX, hV⟩ := Cert.Finite.holds_of_fn _ _ (hpre c)
  funext j
  obtain ⟨b, i, e, rfl⟩ : ∃ (b : Fin 8) (i : Fin 4096) (e : Fin 128), j = ix3 b i e := ⟨j 0, j 1, j 2, eq_ix3 j⟩
  refine (Cert.ReferenceIdeal.RefValue.ref_value _ _ Cert.Consts.lits _ _ x v hX hV b i e).trans ?_
  have hs : scoreR (11863283 / 134217728) (2305843 / 2305843009213693952) x b i
      = scoreK (11863283 / 134217728) (2305843 / 2305843009213693952) x b i :=
    funext fun j => (scoreK_eq_scoreR _ _ x Cert.Consts.lits.D_pos b i j).symm
  rw [hs, ← attnK_eq_attnR]
  exact (Cert.KernelIdeal.Final.final_apply m _ _ Cert.Consts.lits c x v hX hV b i e).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
